-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x6 : Shape := ⟨2, ![100000, 6]⟩
abbrev S2x1600000 : Shape := ⟨2, ![2, 1600000]⟩
abbrev S6x64 : Shape := ⟨2, ![6, 64]⟩
abbrev S64 : Shape := ⟨1, ![64]⟩
abbrev S64x32 : Shape := ⟨2, ![64, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S_ : Shape := ⟨0, ![]⟩

class Facts : Prop where
  bcast_S_S100000x6 : S_.BroadcastsInDim S100000x6 (![] : Fin 0 → Fin S100000x6.rank)
  reducesTo_S100000x6_S_d0_1 : S100000x6.ReducesTo [0, 1] S_
  h_S_ : 0 < S_.numel
  bcast_S_S6x64 : S_.BroadcastsInDim S6x64 (![] : Fin 0 → Fin S6x64.rank)
  reducesTo_S6x64_S_d0_1 : S6x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S32x1 .f32) (main_arg13 : FVec F S1 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32x1 .f32 := Host.absf main_arg12
  let main_cst_20 : FVec F S_ .f32 := constant S_ .f32 0x7F800000#32
  let main_v55 : FVec F S32x1 .f32 := broadcastInDim S32x1 ![] bcast_S_S32x1 main_cst_20
  let main_v56 : IVec S32x1 1 := cmpf .olt main_v54 main_v55
  let main_c_21 : IVec S_ 1 := constantI S_ 1 1#1
  let main_v57 : IVec S_ 1 := (fun x v => Host.reduce IntOp.andi x v reducesTo_S32x1_S_d0_1 h_S_) main_v56 main_c_21
  let main_v58 : IVec S_ 1 := andi main_v53 main_v57
  let main_v59 : FVec F S1 .f32 := Host.absf main_arg13
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg8 : FVec F S32x32 .f32) (main_arg9 : FVec F S32 .f32) (main_arg10 : FVec F S32x32 .f32) (main_arg11 : FVec F S32 .f32) (main_arg12 : FVec F S32x1 .f32) (main_arg13 : FVec F S1 .f32) (main_v33 : IVec S_ 1) : IVec S_ 1 :=
  let main_v34 : FVec F S32x32 .f32 := Host.absf main_arg8
  let main_cst_12 : FVec F S_ .f32 := constant S_ .f32 0x7F800000#32
  let main_v35 : FVec F S32x32 .f32 := broadcastInDim S32x32 ![] bcast_S_S32x32 main_cst_12
  let main_v36 : IVec S32x32 1 := cmpf .olt main_v34 main_v35
  let main_c_13 : IVec S_ 1 := constantI S_ 1 1#1
  let main_v37 : IVec S_ 1 := (fun x v => Host.reduce IntOp.andi x v reducesTo_S32x32_S_d0_1 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x32 .f32 := Host.absf main_arg10
  let main_cst_16 : FVec F S_ .f32 := constant S_ .f32 0x7F800000#32
  let main_v45 : FVec F S32x32 .f32 := broadcastInDim S32x32 ![] bcast_S_S32x32 main_cst_16
  let main_v46 : IVec S32x32 1 := cmpf .olt main_v44 main_v45
  let main_c_17 : IVec S_ 1 := constantI S_ 1 1#1
  let main_v47 : IVec S_ 1 := (fun x v => Host.reduce IntOp.andi x v reducesTo_S32x32_S_d0_1 h_S_) main_v46 main_c_17
  let main_v48 : IVec S_ 1 := andi main_v43 main_v47
  let main_v49 : FVec F S32 .f32 := Host.absf main_arg11
  let main_cst_18 : FVec F S_ .f32 := constant S_ .f32 0x7F800000#32
  let main_v50 : FVec F S32 .f32 := broadcastInDim S32 ![] bcast_S_S32 main_cst_18
  fn_part3 (F := F) main_arg12 main_arg13 main_v48 main_v49 main_v50

def fn_part1 {F : FTy → Type} [FloatOps F] (main_arg5 : FVec F S32 .f32) (main_arg6 : FVec F S32x32 .f32) (main_arg7 : FVec F S32 .f32) (main_arg8 : FVec F S32x32 .f32) (main_arg9 : FVec F S32 .f32) (main_arg10 : FVec F S32x32 .f32) (main_arg11 : FVec F S32 .f32) (main_arg12 : FVec F S32x1 .f32) (main_arg13 : FVec F S1 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg6
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x6 .f32) (main_arg1 : IVec S2x1600000 32) (main_arg2 : FVec F S6x64 .f32) (main_arg3 : FVec F S64 .f32) (main_arg4 : FVec F S64x32 .f32) (main_arg5 : FVec F S32 .f32) (main_arg6 : FVec F S32x32 .f32) (main_arg7 : FVec F S32 .f32) (main_arg8 : FVec F S32x32 .f32) (main_arg9 : FVec F S32 .f32) (main_arg10 : FVec F S32x32 .f32) (main_arg11 : FVec F S32 .f32) (main_arg12 : FVec F S32x1 .f32) (main_arg13 : FVec F S1 .f32) : IVec S_ 1 :=
  let main_v0 : FVec F S100000x6 .f32 := Host.absf main_arg0
  let main_cst : FVec F S_ .f32 := constant S_ .f32 0x7F800000#32
  let main_v1 : FVec F S100000x6 .f32 := broadcastInDim S100000x6 ![] bcast_S_S100000x6 main_cst
  let main_v2 : IVec S100000x6 1 := cmpf .olt main_v0 main_v1
  let main_c : IVec S_ 1 := constantI S_ 1 1#1
  let main_v3 : IVec S_ 1 := (fun x v => Host.reduce IntOp.andi x v reducesTo_S100000x6_S_d0_1 h_S_) main_v2 main_c
  let main_v4 : FVec F S6x64 .f32 := Host.absf main_arg2
  let main_cst_0 : FVec F S_ .f32 := constant S_ .f32 0x7F800000#32
  let main_v5 : FVec F S6x64 .f32 := broadcastInDim S6x64 ![] bcast_S_S6x64 main_cst_0
  let main_v6 : IVec S6x64 1 := cmpf .olt main_v4 main_v5
  let main_c_1 : IVec S_ 1 := constantI S_ 1 1#1
  let main_v7 : IVec S_ 1 := (fun x v => Host.reduce IntOp.andi x v reducesTo_S6x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_arg6 main_arg7 main_arg8 main_arg9 main_arg10 main_arg11 main_arg12 main_arg13 main_v13 main_v16
-- ==== Kernel.lean ====
abbrev S100000x6 : Shape := ⟨2, ![100000, 6]⟩
abbrev S2x1600000 : Shape := ⟨2, ![2, 1600000]⟩
abbrev S6x64 : Shape := ⟨2, ![6, 64]⟩
abbrev S64 : Shape := ⟨1, ![64]⟩
abbrev S64x32 : Shape := ⟨2, ![64, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x32 : Shape := ⟨2, ![100000, 32]⟩
abbrev S10000x6 : Shape := ⟨2, ![10000, 6]⟩
abbrev S10000x32 : Shape := ⟨2, ![10000, 32]⟩
abbrev S10000x64 : Shape := ⟨2, ![10000, 64]⟩
abbrev S1x64 : Shape := ⟨2, ![1, 64]⟩
abbrev S1x32 : Shape := ⟨2, ![1, 32]⟩
abbrev S1700000x32 : Shape := ⟨2, ![1700000, 32]⟩
abbrev S100000x1 : Shape := ⟨2, ![100000, 1]⟩
abbrev S10000x1 : Shape := ⟨2, ![10000, 1]⟩
abbrev S1x1 : Shape := ⟨2, ![1, 1]⟩

abbrev nBuf : Space → Nat
  | .hbm => 89
  | .vmem => 24
  | .smem => 0
  | _ => 0

abbrev bufTy : (tb : Table) → Fin (tcTables nBuf tb) → BufTy
  | .hbm, ⟨0, _⟩ => ⟨S100000x6, .f32⟩
  | .hbm, ⟨1, _⟩ => ⟨S2x1600000, .i32⟩
  | .hbm, ⟨2, _⟩ => ⟨S6x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S32x32, .f32⟩
  | .hbm, ⟨9, _⟩ => ⟨S32, .f32⟩
  | .hbm, ⟨10, _⟩ => ⟨S32x32, .f32⟩
  | .hbm, ⟨11, _⟩ => ⟨S32, .f32⟩
  | .hbm, ⟨12, _⟩ => ⟨S32x1, .f32⟩
  | .hbm, ⟨13, _⟩ => ⟨S1, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S100000, .i32⟩
  | .hbm, ⟨19, _⟩ => ⟨S1700000, .i32⟩
  | .hbm, ⟨20, _⟩ => ⟨S1700000, .i32⟩
  | .hbm, ⟨21, _⟩ => ⟨S_, .f32⟩
  | .hbm, ⟨22, _⟩ => ⟨S1700000, .f32⟩
  | .hbm, ⟨23, _⟩ => ⟨S_, .f32⟩
  | .hbm, ⟨24, _⟩ => ⟨S100000, .f32⟩
  | .hbm, ⟨25, _⟩ => ⟨S1700000x1, .i32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .i1⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000, .f32⟩
  | .hbm, ⟨53, _⟩ => ⟨S1700000, .f32⟩
  | .hbm, ⟨54, _⟩ => ⟨S100000x32, .f32⟩
  | .hbm, ⟨55, _⟩ => ⟨S_, .i32⟩
  | .hbm, ⟨56, _⟩ => ⟨S1700000, .i32⟩
  | .hbm, ⟨57, _⟩ => ⟨S1700000, .i1⟩
  | .hbm, ⟨58, _⟩ => ⟨S_, .i32⟩
  | .hbm, ⟨59, _⟩ => ⟨S1700000, .i32⟩
  | .hbm, ⟨60, _⟩ => ⟨S1700000, .i32⟩
  | .hbm, ⟨61, _⟩ => ⟨S1700000, .i32⟩
  | .hbm, ⟨62, _⟩ => ⟨S1700000x1, .i32⟩
  | .hbm, ⟨63, _⟩ => ⟨S1700000x32, .f32⟩
  | .hbm, ⟨64, _⟩ => ⟨S1700000x1, .f32⟩
  | .hbm, ⟨65, _⟩ => ⟨S1700000x32, .f32⟩
  | .hbm, ⟨66, _⟩ => ⟨S1700000x32, .f32⟩
  | .hbm, ⟨67, _⟩ => ⟨S_, .f32⟩
  | .hbm, ⟨68, _⟩ => ⟨S100000x32, .f32⟩
  | .hbm, ⟨69, _⟩ => ⟨S1700000x1, .i32⟩
  | .hbm, ⟨70, _⟩ => ⟨S100000x32, .f32⟩
  | .hbm, ⟨71, _⟩ => ⟨S100000x32, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x32, .f32⟩
  | .hbm, ⟨81, _⟩ => ⟨S1700000x1, .f32⟩
  | .hbm, ⟨82, _⟩ => ⟨S1700000x32, .f32⟩
  | .hbm, ⟨83, _⟩ => ⟨S1700000x32, .f32⟩
  | .hbm, ⟨84, _⟩ => ⟨S_, .f32⟩
  | .hbm, ⟨85, _⟩ => ⟨S100000x32, .f32⟩
  | .hbm, ⟨86, _⟩ => ⟨S1700000x1, .i32⟩
  | .hbm, ⟨87, _⟩ => ⟨S100000x32, .f32⟩
  | .hbm, ⟨88, _⟩ => ⟨S100000x1, .f32⟩
  | .local _ .vmem, ⟨0, _⟩ => ⟨S10000x6, .f32⟩
  | .local _ .vmem, ⟨1, _⟩ => ⟨S10000x6, .f32⟩
  | .local _ .vmem, ⟨2, _⟩ => ⟨S6x64, .f32⟩
  | .local _ .vmem, ⟨3, _⟩ => ⟨S64, .f32⟩
  | .local _ .vmem, ⟨4, _⟩ => ⟨S64x32, .f32⟩
  | .local _ .vmem, ⟨5, _⟩ => ⟨S32, .f32⟩
  | .local _ .vmem, ⟨6, _⟩ => ⟨S32x32, .f32⟩
  | .local _ .vmem, ⟨7, _⟩ => ⟨S10000x32, .f32⟩
  | .local _ .vmem, ⟨8, _⟩ => ⟨S10000x32, .f32⟩
  | .local _ .vmem, ⟨9, _⟩ => ⟨S10000x32, .f32⟩
  | .local _ .vmem, ⟨10, _⟩ => ⟨S10000x32, .f32⟩
  | .local _ .vmem, ⟨11, _⟩ => ⟨S32, .f32⟩
  | .local _ .vmem, ⟨12, _⟩ => ⟨S32x32, .f32⟩
  | .local _ .vmem, ⟨13, _⟩ => ⟨S10000x32, .f32⟩
  | .local _ .vmem, ⟨14, _⟩ => ⟨S10000x32, .f32⟩
  | .local _ .vmem, ⟨15, _⟩ => ⟨S10000x32, .f32⟩
  | .local _ .vmem, ⟨16, _⟩ => ⟨S10000x32, .f32⟩
  | .local _ .vmem, ⟨17, _⟩ => ⟨S32, .f32⟩
  | .local _ .vmem, ⟨18, _⟩ => ⟨S32x32, .f32⟩
  | .local _ .vmem, ⟨19, _⟩ => ⟨S32, .f32⟩
  | .local _ .vmem, ⟨20, _⟩ => ⟨S32x1, .f32⟩
  | .local _ .vmem, ⟨21, _⟩ => ⟨S1, .f32⟩
  | .local _ .vmem, ⟨22, _⟩ => ⟨S10000x1, .f32⟩
  | .local _ .vmem, ⟨23, _⟩ => ⟨S10000x1, .f32⟩
  | _, _ => ⟨S100000x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v14 : Ref sig .tc := ⟨.hbm, 34, rfl⟩
abbrev main_c : Ref sig .tc := ⟨.hbm, 35, rfl⟩
abbrev main_v15 : Ref sig .tc := ⟨.hbm, 36, rfl⟩
abbrev main_v16 : Ref sig .tc := ⟨.hbm, 37, rfl⟩
abbrev main_c_3 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_4 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_c_6 : Ref sig .tc := ⟨.hbm, 55, rfl⟩
abbrev main_v31 : Ref sig .tc := ⟨.hbm, 56, rfl⟩
abbrev main_v32 : Ref sig .tc := ⟨.hbm, 57, rfl⟩
abbrev main_c_7 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_8 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_c_9 : Ref sig .tc := ⟨.hbm, 72, rfl⟩
abbrev main_v45 : Ref sig .tc := ⟨.hbm, 73, rfl⟩
abbrev main_v46 : Ref sig .tc := ⟨.hbm, 74, rfl⟩
abbrev main_c_10 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_11 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg6_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem6_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S32x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S32x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S10000x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x6_S10000x6_0_0 : ∀ a, (![0, 0] : Fin 2 → Nat) a + S10000x6.size a ≤ S10000x6.size a
  h_S10000x6 : 0 < S10000x6.numel
  bitsLt_bf16_f32 : FTy.bits .bf16 < FTy.bits .f32
  inb_S6x64_S6x64_0_0 : ∀ a, (![0, 0] : Fin 2 → Nat) a + S6x64.size a ≤ S6x64.size a
  h_S6x64 : 0 < S6x64.numel
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  inb_S64x32_S64x32_0_0 : ∀ a, (![0, 0] : Fin 2 → Nat) a + S64x32.size a ≤ S64x32.size a
  h_S64x32 : 0 < S64x32.numel
  inb_S32_S32_0 : ∀ a, (![0] : Fin 1 → Nat) a + S32.size a ≤ S32.size a
  h_S32 : 0 < S32.numel
  shapeCasts_S32_S1x32 : S32.ShapeCasts S1x32
  broadcasts_S1x32_S10000x32 : S1x32.Broadcasts S10000x32
  inb_S32x32_S32x32_0_0 : ∀ a, (![0, 0] : Fin 2 → Nat) a + S32x32.size a ≤ S32x32.size a
  h_S32x32 : 0 < S32x32.numel
  inb_S10000x32_S10000x32_0_0 : ∀ a, (![0, 0] : Fin 2 → Nat) a + S10000x32.size a ≤ S10000x32.size a
  h_S10000x32 : 0 < S10000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  shapeCasts_S10000x32_S10000x32 : S10000x32.ShapeCasts S10000x32
  inb_S32x1_S32x1_0_0 : ∀ a, (![0, 0] : Fin 2 → Nat) a + S32x1.size a ≤ S32x1.size a
  h_S32x1 : 0 < S32x1.numel
  inb_S1_S1_0 : ∀ a, (![0] : Fin 1 → Nat) a + S1.size a ≤ S1.size a
  h_S1 : 0 < S1.numel
  shapeCasts_S1_S1x1 : S1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x6_S6x64_S10000x64_1_0_0_1_n_n_wf : DotDims.WF S10000x6 S6x64 S10000x64 [1] [0] [0] [1] [] []
  dot_S10000x64_S64x32_S10000x32_1_0_0_1_n_n_wf : DotDims.WF S10000x64 S64x32 S10000x32 [1] [0] [0] [1] [] []
  dot_S10000x32_S32x32_S10000x32_1_0_0_1_n_n_wf : DotDims.WF S10000x32 S32x32 S10000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S10000x32_S32x1_S10000x1_1_0_0_1_n_n_wf : DotDims.WF S10000x32 S32x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x6.size a ≤ S100000x6.size a
  hwx0_0 : ∀ i : grid0.Coords, EltTy.bits .f32 = 32 ∨ (Rect.block (s := S100000x6) S10000x6.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6x64.size a ≤ S6x64.size a
  hwx0_1 : ∀ i : grid0.Coords, EltTy.bits .f32 = 32 ∨ (Rect.block (s := S6x64) S6x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x32.size a ≤ S64x32.size a
  hwx0_3 : ∀ i : grid0.Coords, EltTy.bits .f32 = 32 ∨ (Rect.block (s := S64x32) S64x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32.size a ≤ S32.size a
  hwx0_4 : ∀ i : grid0.Coords, EltTy.bits .f32 = 32 ∨ (Rect.block (s := S32) S32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x32.size a ≤ S32x32.size a
  hwx0_5 : ∀ i : grid0.Coords, EltTy.bits .f32 = 32 ∨ (Rect.block (s := S32x32) S32x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x32.size a ≤ S100000x32.size a
  hwx0_6 : ∀ i : grid0.Coords, EltTy.bits .f32 = 32 ∨ (Rect.block (s := S100000x32) S10000x32.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32.size a ≤ S32.size a
  hwx1_1 : ∀ i : grid1.Coords, EltTy.bits .f32 = 32 ∨ (Rect.block (s := S32) S32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x32.size a ≤ S32x32.size a
  hwx1_2 : ∀ i : grid1.Coords, EltTy.bits .f32 = 32 ∨ (Rect.block (s := S32x32) S32x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x32.size a ≤ S100000x32.size a
  hwx1_3 : ∀ i : grid1.Coords, EltTy.bits .f32 = 32 ∨ (Rect.block (s := S100000x32) S10000x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S100000x32.size a
  hwx2_0 : ∀ i : grid2.Coords, EltTy.bits .f32 = 32 ∨ (Rect.block (s := S100000x32) S10000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32.size a ≤ S32.size a
  hwx2_1 : ∀ i : grid2.Coords, EltTy.bits .f32 = 32 ∨ (Rect.block (s := S32) S32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x32.size a ≤ S32x32.size a
  hwx2_2 : ∀ i : grid2.Coords, EltTy.bits .f32 = 32 ∨ (Rect.block (s := S32x32) S32x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32.size a ≤ S32.size a
  hwx2_3 : ∀ i : grid2.Coords, EltTy.bits .f32 = 32 ∨ (Rect.block (s := S32) S32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S32x1.size a ≤ S32x1.size a
  hwx2_4 : ∀ i : grid2.Coords, EltTy.bits .f32 = 32 ∨ (Rect.block (s := S32x1) S32x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1.size a ≤ S1.size a
  hwx2_5 : ∀ i : grid2.Coords, EltTy.bits .f32 = 32 ∨ (Rect.block (s := S1) S1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x1.size a ≤ S100000x1.size a
  hwx2_6 : ∀ i : grid2.Coords, EltTy.bits .f32 = 32 ∨ (Rect.block (s := S100000x1) S10000x1.size (cc2_transform_6 i) (hinb2_6 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x6_S6x64_S10000x64_1_0_0_1_n_n : DotDims S10000x6 S6x64 S10000x64 where
  lhsContracting := [1]
  rhsContracting := [0]
  lhsNonContracting := [0]
  rhsNonContracting := [1]
  lhsBatch := []
  rhsBatch := []
  wf := dot_S10000x6_S6x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S10000x32_S32x1_S10000x1_1_0_0_1_n_n : DotDims S10000x32 S32x1 S10000x1 where
  lhsContracting := [1]
  rhsContracting := [0]
  lhsNonContracting := [0]
  rhsNonContracting := [1]
  lhsBatch := []
  rhsBatch := []
  wf := dot_S10000x32_S32x1_S10000x1_1_0_0_1_n_n_wf

abbrev win0_0 : Pipeline.Window sig grid0 :=
  Pipeline.Window.ofSpec (Memref.whole main_arg0) S10000x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S6x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S32x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v30) S10000x32.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v43) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S32x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S10000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v57) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S32x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S32x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg13) S1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v58) S10000x1.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x6 : Shape := ⟨2, ![100000, 6]⟩
abbrev S2x1600000 : Shape := ⟨2, ![2, 1600000]⟩
abbrev S6x64 : Shape := ⟨2, ![6, 64]⟩
abbrev S64 : Shape := ⟨1, ![64]⟩
abbrev S64x32 : Shape := ⟨2, ![64, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S100000x64 : Shape := ⟨2, ![100000, 64]⟩
abbrev S1x64 : Shape := ⟨2, ![1, 64]⟩
abbrev S100000x32 : Shape := ⟨2, ![100000, 32]⟩
abbrev S1x32 : Shape := ⟨2, ![1, 32]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x32 : Shape := ⟨2, ![1700000, 32]⟩
abbrev S100000x1 : Shape := ⟨2, ![100000, 1]⟩
abbrev S1x1 : Shape := ⟨2, ![1, 1]⟩

abbrev nBuf : Space → Nat
  | .hbm => 156
  | .vmem => 0
  | .smem => 0
  | _ => 0

abbrev hbmTy0_0 (i : Nat) : BufTy := match i % 128 with
  | 0 => ⟨S100000x6, .f32⟩
  | 1 => ⟨S2x1600000, .i32⟩
  | 2 => ⟨S6x64, .f32⟩
  | 3 => ⟨S64, .f32⟩
  | 4 => ⟨S64x32, .f32⟩
  | 5 => ⟨S32, .f32⟩
  | 6 => ⟨S32x32, .f32⟩
  | 7 => ⟨S32, .f32⟩
  | 8 => ⟨S32x32, .f32⟩
  | 9 => ⟨S32, .f32⟩
  | 10 => ⟨S32x32, .f32⟩
  | 11 => ⟨S32, .f32⟩
  | 12 => ⟨S32x1, .f32⟩
  | 13 => ⟨S1, .f32⟩
  | 14 => ⟨S1x1600000, .i32⟩
  | 15 => ⟨S1600000, .i32⟩
  | 16 => ⟨S1x1600000, .i32⟩
  | 17 => ⟨S1600000, .i32⟩
  | 18 => ⟨S100000x64, .f32⟩
  | 19 => ⟨S1x64, .f32⟩
  | 20 => ⟨S100000x64, .f32⟩
  | 21 => ⟨S100000x64, .f32⟩
  | 22 => ⟨S100000x64, .f32⟩
  | 23 => ⟨S100000x32, .f32⟩
  | 24 => ⟨S1x32, .f32⟩
  | 25 => ⟨S100000x32, .f32⟩
  | 26 => ⟨S100000x32, .f32⟩
  | 27 => ⟨S100000x32, .f32⟩
  | 28 => ⟨S100000x32, .f32⟩
  | 29 => ⟨S100000, .i32⟩
  | 30 => ⟨S1700000, .i32⟩
  | 31 => ⟨S1700000, .i32⟩
  | 32 => ⟨S_, .f32⟩
  | 33 => ⟨S1700000, .f32⟩
  | 34 => ⟨S_, .f32⟩
  | 35 => ⟨S100000, .f32⟩
  | 36 => ⟨S1700000x1, .i32⟩
  | 37 => ⟨S100000, .f32⟩
  | 38 => ⟨S_, .f32⟩
  | 39 => ⟨S100000, .f32⟩
  | 40 => ⟨S100000, .i1⟩
  | 41 => ⟨S100000, .f32⟩
  | 42 => ⟨S_, .f32⟩
  | 43 => ⟨S_, .f32⟩
  | 44 => ⟨S100000, .f32⟩
  | 45 => ⟨S100000, .f32⟩
  | 46 => ⟨S_, .i32⟩
  | 47 => ⟨S1700000, .i32⟩
  | 48 => ⟨S1700000, .i1⟩
  | 49 => ⟨S_, .i32⟩
  | 50 => ⟨S1700000, .i32⟩
  | 51 => ⟨S1700000, .i32⟩
  | 52 => ⟨S1700000, .i32⟩
  | 53 => ⟨S1700000x1, .i32⟩
  | 54 => ⟨S1700000, .f32⟩
  | 55 => ⟨S_, .i32⟩
  | 56 => ⟨S1700000, .i32⟩
  | 57 => ⟨S1700000, .i1⟩
  | 58 => ⟨S_, .i32⟩
  | 59 => ⟨S1700000, .i32⟩
  | 60 => ⟨S1700000, .i32⟩
  | 61 => ⟨S1700000, .i32⟩
  | 62 => ⟨S1700000x1, .i32⟩
  | 63 => ⟨S1700000, .f32⟩
  | 64 => ⟨S1700000, .f32⟩
  | 65 => ⟨S_, .i32⟩
  | 66 => ⟨S1700000, .i32⟩
  | 67 => ⟨S1700000, .i1⟩
  | 68 => ⟨S_, .i32⟩
  | 69 => ⟨S1700000, .i32⟩
  | 70 => ⟨S1700000, .i32⟩
  | 71 => ⟨S1700000, .i32⟩
  | 72 => ⟨S1700000x1, .i32⟩
  | 73 => ⟨S1700000x32, .f32⟩
  | 74 => ⟨S1700000x1, .f32⟩
  | 75 => ⟨S1700000x32, .f32⟩
  | 76 => ⟨S1700000x32, .f32⟩
  | 77 => ⟨S_, .f32⟩
  | 78 => ⟨S100000x32, .f32⟩
  | 79 => ⟨S1700000x1, .i32⟩
  | 80 => ⟨S100000x32, .f32⟩
  | 81 => ⟨S1x32, .f32⟩
  | 82 => ⟨S100000x32, .f32⟩
  | 83 => ⟨S100000x32, .f32⟩
  | 84 => ⟨S_, .f32⟩
  | 85 => ⟨S100000x32, .f32⟩
  | 86 => ⟨S100000x32, .f32⟩
  | 87 => ⟨S100000x32, .f32⟩
  | 88 => ⟨S100000, .i32⟩
  | 89 => ⟨S1700000, .i32⟩
  | 90 => ⟨S1700000, .i32⟩
  | 91 => ⟨S_, .f32⟩
  | 92 => ⟨S1700000, .f32⟩
  | 93 => ⟨S_, .f32⟩
  | 94 => ⟨S100000, .f32⟩
  | 95 => ⟨S1700000x1, .i32⟩
  | 96 => ⟨S100000, .f32⟩
  | 97 => ⟨S_, .f32⟩
  | 98 => ⟨S100000, .f32⟩
  | 99 => ⟨S100000, .i1⟩
  | 100 => ⟨S100000, .f32⟩
  | 101 => ⟨S_, .f32⟩
  | 102 => ⟨S_, .f32⟩
  | 103 => ⟨S100000, .f32⟩
  | 104 => ⟨S100000, .f32⟩
  | 105 => ⟨S_, .i32⟩
  | 106 => ⟨S1700000, .i32⟩
  | 107 => ⟨S1700000, .i1⟩
  | 108 => ⟨S_, .i32⟩
  | 109 => ⟨S1700000, .i32⟩
  | 110 => ⟨S1700000, .i32⟩
  | 111 => ⟨S1700000, .i32⟩
  | 112 => ⟨S1700000x1, .i32⟩
  | 113 => ⟨S1700000, .f32⟩
  | 114 => ⟨S_, .i32⟩
  | 115 => ⟨S1700000, .i32⟩
  | 116 => ⟨S1700000, .i1⟩
  | 117 => ⟨S_, .i32⟩
  | 118 => ⟨S1700000, .i32⟩
  | 119 => ⟨S1700000, .i32⟩
  | 120 => ⟨S1700000, .i32⟩
  | 121 => ⟨S1700000x1, .i32⟩
  | 122 => ⟨S1700000, .f32⟩
  | 123 => ⟨S1700000, .f32⟩
  | 124 => ⟨S_, .i32⟩
  | 125 => ⟨S1700000, .i32⟩
  | 126 => ⟨S1700000, .i1⟩
  | 127 => ⟨S_, .i32⟩
  | _ => ⟨S100000x6, .f32⟩

abbrev hbmTy0_1 (i : Nat) : BufTy := match i % 128 with
  | 0 => ⟨S1700000, .i32⟩
  | 1 => ⟨S1700000, .i32⟩
  | 2 => ⟨S1700000, .i32⟩
  | 3 => ⟨S1700000x1, .i32⟩
  | 4 => ⟨S1700000x32, .f32⟩
  | 5 => ⟨S1700000x1, .f32⟩
  | 6 => ⟨S1700000x32, .f32⟩
  | 7 => ⟨S1700000x32, .f32⟩
  | 8 => ⟨S_, .f32⟩
  | 9 => ⟨S100000x32, .f32⟩
  | 10 => ⟨S1700000x1, .i32⟩
  | 11 => ⟨S100000x32, .f32⟩
  | 12 => ⟨S1x32, .f32⟩
  | 13 => ⟨S100000x32, .f32⟩
  | 14 => ⟨S100000x32, .f32⟩
  | 15 => ⟨S_, .f32⟩
  | 16 => ⟨S100000x32, .f32⟩
  | 17 => ⟨S100000x32, .f32⟩
  | 18 => ⟨S100000x32, .f32⟩
  | 19 => ⟨S1x32, .f32⟩
  | 20 => ⟨S100000x32, .f32⟩
  | 21 => ⟨S100000x32, .f32⟩
  | 22 => ⟨S100000x32, .f32⟩
  | 23 => ⟨S100000x1, .f32⟩
  | 24 => ⟨S1x1, .f32⟩
  | 25 => ⟨S100000x1, .f32⟩
  | 26 => ⟨S100000x1, .f32⟩
  | 27 => ⟨S100000x1, .f32⟩
  | _ => ⟨S100000x6, .f32⟩

abbrev hbmTy (i : Nat) : BufTy := match i / 128 with
  | 0 => hbmTy0_0 i
  | 1 => hbmTy0_1 i
  | _ => ⟨S100000x6, .f32⟩

abbrev bufTy : (tb : Table) → Fin (tcTables nBuf tb) → BufTy
  | .hbm, ⟨i, _⟩ => hbmTy i
  | _, _ => ⟨S100000x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst : Ref sig .tc := ⟨.hbm, 32, rfl⟩
abbrev main_v18 : Ref sig .tc := ⟨.hbm, 33, rfl⟩
abbrev main_cst_0 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_1 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_2 : Ref sig .tc := ⟨.hbm, 42, rfl⟩
abbrev main_call0_v0 : Ref sig .tc := ⟨.hbm, 43, rfl⟩
abbrev main_call0_v1 : Ref sig .tc := ⟨.hbm, 44, rfl⟩
abbrev main_v25 : Ref sig .tc := ⟨.hbm, 45, rfl⟩
abbrev main_c : Ref sig .tc := ⟨.hbm, 46, rfl⟩
abbrev main_v26 : Ref sig .tc := ⟨.hbm, 47, rfl⟩
abbrev main_v27 : Ref sig .tc := ⟨.hbm, 48, rfl⟩
abbrev main_c_3 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_4 : Ref sig .tc := ⟨.hbm, 55, rfl⟩
abbrev main_v33 : Ref sig .tc := ⟨.hbm, 56, rfl⟩
abbrev main_v34 : Ref sig .tc := ⟨.hbm, 57, rfl⟩
abbrev main_c_5 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_c_6 : Ref sig .tc := ⟨.hbm, 65, rfl⟩
abbrev main_v41 : Ref sig .tc := ⟨.hbm, 66, rfl⟩
abbrev main_v42 : Ref sig .tc := ⟨.hbm, 67, rfl⟩
abbrev main_c_7 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_8 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_call1_cst : Ref sig .tc := ⟨.hbm, 84, rfl⟩
abbrev main_call1_v0 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_9 : Ref sig .tc := ⟨.hbm, 91, rfl⟩
abbrev main_v62 : Ref sig .tc := ⟨.hbm, 92, rfl⟩
abbrev main_cst_10 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_11 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_12 : Ref sig .tc := ⟨.hbm, 101, rfl⟩
abbrev main_call2_v0 : Ref sig .tc := ⟨.hbm, 102, rfl⟩
abbrev main_call2_v1 : Ref sig .tc := ⟨.hbm, 103, rfl⟩
abbrev main_v69 : Ref sig .tc := ⟨.hbm, 104, rfl⟩
abbrev main_c_13 : Ref sig .tc := ⟨.hbm, 105, rfl⟩
abbrev main_v70 : Ref sig .tc := ⟨.hbm, 106, rfl⟩
abbrev main_v71 : Ref sig .tc := ⟨.hbm, 107, rfl⟩
abbrev main_c_14 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_c_15 : Ref sig .tc := ⟨.hbm, 114, rfl⟩
abbrev main_v77 : Ref sig .tc := ⟨.hbm, 115, rfl⟩
abbrev main_v78 : Ref sig .tc := ⟨.hbm, 116, rfl⟩
abbrev main_c_16 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_c_17 : Ref sig .tc := ⟨.hbm, 124, rfl⟩
abbrev main_v85 : Ref sig .tc := ⟨.hbm, 125, rfl⟩
abbrev main_v86 : Ref sig .tc := ⟨.hbm, 126, rfl⟩
abbrev main_c_18 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_cst_19 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_call3_cst : Ref sig .tc := ⟨.hbm, 143, rfl⟩
abbrev main_call3_v0 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S100000x6_S6x64_S100000x64_1_0_0_1_n_n_wf : DotDims.WF S100000x6 S6x64 S100000x64 [1] [0] [0] [1] [] []
  dot_S100000x64_S64x32_S100000x32_1_0_0_1_n_n_wf : DotDims.WF S100000x64 S64x32 S100000x32 [1] [0] [0] [1] [] []
  dot_S100000x32_S32x32_S100000x32_1_0_0_1_n_n_wf : DotDims.WF S100000x32 S32x32 S100000x32 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S100000x32_S32x1_S100000x1_1_0_0_1_n_n_wf : DotDims.WF S100000x32 S32x1 S100000x1 [1] [0] [0] [1] [] []

variable [Facts₀]

def dot_S100000x6_S6x64_S100000x64_1_0_0_1_n_n : DotDims S100000x6 S6x64 S100000x64 where
  lhsContracting := [1]
  rhsContracting := [0]
  lhsNonContracting := [0]
  rhsNonContracting := [1]
  lhsBatch := []
  rhsBatch := []
  wf := dot_S100000x6_S6x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.Spec.lean ====
/-
  The network as whole-array functions, for any float values.

  A node-wise two-layer perceptron embeds the 100000 nodes (6 → 64 → 32 features, tanh after each layer);
  two graph-convolution layers follow, each a 32 × 32 linear map, then the symmetric-normalised sum over the
  incoming edges and one self loop per node, then a bias and max(·, 0); a second two-layer perceptron
  (32 → 32 → 1, tanh after each layer) reads the result out.

  The graph part is kept abstract: `srcLoop`, `dstLoop` are the edge list's two rows with the self loops
  0 … 99999 appended, `normOf` the per-edge weight deg(src)^(-1/2) · deg(dst)^(-1/2) (0 where a degree is 0),
  and `aggOf hw src dst w` the array whose row v is the sum, over the edges e with dst e = v, of w e · hw[src e].
  Nothing below opens the gather or the scatter-add: both programs apply the same ones.
-/
import proofs.«169415_j13134009991452_1_alg».proof.Proof.Gen.ReferenceIdeal

noncomputable section

namespace Cert.Gnn

open Cert.ReferenceIdeal Cert.ReferenceIdeal.Gen Idealize.ShloMosaic Idealize.ShloMosaic.TcCoe

variable {F : FTy → Type} [FloatOps F]

/-! ## The graph -/

/-- The edge sources followed by the self loops 0 … 99999. -/
def srcLoop (e : (⟨S2x1600000, .i32⟩ : BufTy).Contents (Elt F)) : (⟨S1700000, .i32⟩ : BufTy).Contents (Elt F) :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The edge targets followed by the self loops 0 … 99999. -/
def dstLoop (e : (⟨S2x1600000, .i32⟩ : BufTy).Contents (Elt F)) : (⟨S1700000, .i32⟩ : BufTy).Contents (Elt F) :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A node index counted from the end when negative: i + 100000 where i < 0, else i. -/
def wrap (i : (⟨S1700000, .i32⟩ : BufTy).Contents (Elt F)) : (⟨S1700000, .i32⟩ : BufTy).Contents (Elt F) :=
  select (cmpi .slt i (broadcastInDim S1700000 ![] bcast_S_S1700000 (constantI S_ 32 0#32)))
    (addi i (broadcastInDim S1700000 ![] bcast_S_S1700000 (constantI S_ 32 100000#32))) i

/-- An index list as a one-column table. -/
def col1 {φ : EltTy} (i : (⟨S1700000, φ⟩ : BufTy).Contents (Elt F)) : (⟨S1700000x1, φ⟩ : BufTy).Contents (Elt F) :=
  broadcastInDim S1700000x1 ![0] bcast_S1700000_S1700000x1_0 i

/-- The in-degree of every node, self loop included: a sum of ones over the edges by target. -/
def degOf (e : (⟨S2x1600000, .i32⟩ : BufTy).Contents (Elt F)) : (⟨S100000, .f32⟩ : BufTy).Contents (Elt F) :=
  Host.scatterAdd (F := F) scatter_S100000_S1700000x1_S1700000_n_0_0_1
    (broadcastInDim S100000 ![] bcast_S_S100000 (constant (F := F) S_ .f32 0x00000000#32))
    (col1 (dstLoop e))
    (broadcastInDim S1700000 ![] bcast_S_S1700000 (constant (F := F) S_ .f32 0x3F800000#32))

/-- deg^(-1/2) where the degree is positive, 0 elsewhere. -/
def dinvOf (e : (⟨S2x1600000, .i32⟩ : BufTy).Contents (Elt F)) : (⟨S100000, .f32⟩ : BufTy).Contents (Elt F) :=
  select (cmpf .ogt (degOf e) (broadcastInDim S100000 ![] bcast_S_S100000 (constant (F := F) S_ .f32 0x00000000#32)))
    (Host.rsqrt (F := F) (degOf e))
    (broadcastInDim S100000 ![] bcast_S_S100000 (id (constant (F := F) S_ .f32 0x00000000#32)))

/-- The weight of every edge: deg(src)^(-1/2) · deg(dst)^(-1/2). -/
def normOf (e : (⟨S2x1600000, .i32⟩ : BufTy).Contents (Elt F)) : (⟨S1700000, .f32⟩ : BufTy).Contents (Elt F) :=
  mulf (Host.gather gather_S100000_S1700000x1_S1700000_n_0_n_n_0_1_1 (dinvOf e) (col1 (wrap (srcLoop e))))
    (Host.gather gather_S100000_S1700000x1_S1700000_n_0_n_n_0_1_1 (dinvOf e) (col1 (wrap (dstLoop e))))

/-- The weighted sum over incoming edges: row v is the sum over the edges e with dst e = v of w e · hw[src e]. -/
def aggOf (hw : (⟨S100000x32, .f32⟩ : BufTy).Contents (Elt F))
    (src dst : (⟨S1700000, .i32⟩ : BufTy).Contents (Elt F)) (w : (⟨S1700000, .f32⟩ : BufTy).Contents (Elt F)) :
    (⟨S100000x32, .f32⟩ : BufTy).Contents (Elt F) :=
  Host.scatterAdd (F := F) scatter_S100000x32_S1700000x1_S1700000x32_1_0_0_1
    (broadcastInDim S100000x32 ![] bcast_S_S100000x32 (constant (F := F) S_ .f32 0x00000000#32))
    (col1 dst)
    (mulf (Host.gather gather_S100000x32_S1700000x1_S1700000x32_1_0_n_n_0_1_132 hw (col1 (wrap src)))
      (broadcastInDim S1700000x32 ![0, 1] bcast_S1700000x1_S1700000x32_0_1 (col1 w)))

/-! ## The node-wise layers -/

/-- A bias of 64 features repeated on every node. -/
def bias64 (b : (⟨S64, .f32⟩ : BufTy).Contents (Elt F)) : (⟨S100000x64, .f32⟩ : BufTy).Contents (Elt F) :=
  broadcastInDim S100000x64 ![0, 1] bcast_S1x64_S100000x64_0_1 (broadcastInDim S1x64 ![1] bcast_S64_S1x64_1 b)

/-- A bias of 32 features repeated on every node. -/
def bias32 (b : (⟨S32, .f32⟩ : BufTy).Contents (Elt F)) : (⟨S100000x32, .f32⟩ : BufTy).Contents (Elt F) :=
  broadcastInDim S100000x32 ![0, 1] bcast_S1x32_S100000x32_0_1 (broadcastInDim S1x32 ![1] bcast_S32_S1x32_1 b)

/-- A bias of one feature repeated on every node. -/
def bias1 (b : (⟨S1, .f32⟩ : BufTy).Contents (Elt F)) : (⟨S100000x1, .f32⟩ : BufTy).Contents (Elt F) :=
  broadcastInDim S100000x1 ![0, 1] bcast_S1x1_S100000x1_0_1 (broadcastInDim S1x1 ![1] bcast_S1_S1x1_1 b)

/-- The embedding perceptron followed by the first convolution's linear map:
    tanh(tanh(x · W₁ + b₁) · W₂ + b₂) · Wg. -/
def embedOf (x : (⟨S100000x6, .f32⟩ : BufTy).Contents (Elt F)) (w1 : (⟨S6x64, .f32⟩ : BufTy).Contents (Elt F))
    (b1 : (⟨S64, .f32⟩ : BufTy).Contents (Elt F)) (w2 : (⟨S64x32, .f32⟩ : BufTy).Contents (Elt F))
    (b2 : (⟨S32, .f32⟩ : BufTy).Contents (Elt F)) (wg : (⟨S32x32, .f32⟩ : BufTy).Contents (Elt F)) :
    (⟨S100000x32, .f32⟩ : BufTy).Contents (Elt F) :=
  Host.dotGeneral (F := F) dot_S100000x32_S32x32_S100000x32_1_0_0_1_n_n none
    (Host.tanh (F := F) (addf (Host.dotGeneral (F := F) dot_S100000x64_S64x32_S100000x32_1_0_0_1_n_n none
      (Host.tanh (F := F) (addf (Host.dotGeneral (F := F) dot_S100000x6_S6x64_S100000x64_1_0_0_1_n_n none x w1) (bias64 b1))) w2) (bias32 b2))) wg

/-- max(a + b, 0), the bias repeated on every node. -/
def reluBias (a : (⟨S100000x32, .f32⟩ : BufTy).Contents (Elt F)) (b : (⟨S32, .f32⟩ : BufTy).Contents (Elt F)) :
    (⟨S100000x32, .f32⟩ : BufTy).Contents (Elt F) :=
  maximumf (addf a (bias32 b)) (broadcastInDim S100000x32 ![] bcast_S_S100000x32 (constant (F := F) S_ .f32 0x00000000#32))

/-- The end of one convolution and the linear map of the next: max(a + b, 0) · W. -/
def layerOf (a : (⟨S100000x32, .f32⟩ : BufTy).Contents (Elt F)) (b : (⟨S32, .f32⟩ : BufTy).Contents (Elt F))
    (w : (⟨S32x32, .f32⟩ : BufTy).Contents (Elt F)) : (⟨S100000x32, .f32⟩ : BufTy).Contents (Elt F) :=
  Host.dotGeneral (F := F) dot_S100000x32_S32x32_S100000x32_1_0_0_1_n_n none (reluBias a b) w

/-- The end of the last convolution and the read-out perceptron:
    tanh(tanh(max(a + b, 0) · W₁ + b₁) · W₂ + b₂). -/
def headOf (a : (⟨S100000x32, .f32⟩ : BufTy).Contents (Elt F)) (b : (⟨S32, .f32⟩ : BufTy).Contents (Elt F))
    (w1 : (⟨S32x32, .f32⟩ : BufTy).Contents (Elt F)) (b1 : (⟨S32, .f32⟩ : BufTy).Contents (Elt F))
    (w2 : (⟨S32x1, .f32⟩ : BufTy).Contents (Elt F)) (b2 : (⟨S1, .f32⟩ : BufTy).Contents (Elt F)) :
    (⟨S100000x1, .f32⟩ : BufTy).Contents (Elt F) :=
  Host.tanh (F := F) (addf (Host.dotGeneral (F := F) dot_S100000x32_S32x1_S100000x1_1_0_0_1_n_n none
    (Host.tanh (F := F) (addf (Host.dotGeneral (F := F) dot_S100000x32_S32x32_S100000x32_1_0_0_1_n_n none (reluBias a b) w1) (bias32 b1))) w2) (bias1 b2))

/-! ## The whole network -/

/-- The network's output, one value per node, from the node features, the edge list and the twelve weights. -/
def gnnOf (x : (⟨S100000x6, .f32⟩ : BufTy).Contents (Elt F)) (e : (⟨S2x1600000, .i32⟩ : BufTy).Contents (Elt F))
    (we1 : (⟨S6x64, .f32⟩ : BufTy).Contents (Elt F)) (be1 : (⟨S64, .f32⟩ : BufTy).Contents (Elt F))
    (we2 : (⟨S64x32, .f32⟩ : BufTy).Contents (Elt F)) (be2 : (⟨S32, .f32⟩ : BufTy).Contents (Elt F))
    (wg1 : (⟨S32x32, .f32⟩ : BufTy).Contents (Elt F)) (bg1 : (⟨S32, .f32⟩ : BufTy).Contents (Elt F))
    (wg2 : (⟨S32x32, .f32⟩ : BufTy).Contents (Elt F)) (bg2 : (⟨S32, .f32⟩ : BufTy).Contents (Elt F))
    (wp1 : (⟨S32x32, .f32⟩ : BufTy).Contents (Elt F)) (bp1 : (⟨S32, .f32⟩ : BufTy).Contents (Elt F))
    (wp2 : (⟨S32x1, .f32⟩ : BufTy).Contents (Elt F)) (bp2 : (⟨S1, .f32⟩ : BufTy).Contents (Elt F)) :
    (⟨S100000x1, .f32⟩ : BufTy).Contents (Elt F) :=
  headOf (aggOf (layerOf (aggOf (embedOf x we1 be1 we2 be2 wg1) (srcLoop e) (dstLoop e) (normOf e)) bg1 wg2)
    (srcLoop e) (dstLoop e) (normOf e)) bg2 wp1 bp1 wp2 bp2

end Cert.Gnn

end
-- ==== Proof.RowBlocks.lean ====
/-
  Row blocks. The three kernels each take 10000 consecutive rows of a node array (rows t·10000 … t·10000 + 9999,
  t < 10) together with whole weight arrays, and every operation in them works row by row: a product with a
  weight matrix contracts over the features of ONE row, a bias is added along the row, tanh and max(·, 0) act
  entry by entry. So what a kernel computes from block t is rows t·10000 … of what the same layers compute from
  the whole array: entry (p, q) of the block result is entry (t·10000 + p, q) of the whole result.
  Over the extended reals a change of float format is the identity and a matrix product into a zero
  accumulator is the plain sum over the contracted feature, on both sides.
-/
import proofs.«169415_j13134009991452_1_alg».proof.Proof.Spec
import proofs.«169415_j13134009991452_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.Gnn

open Idealize.ShloMosaic Idealize.ShloMosaic.TcCoe Idealize.ShloMosaic.ValueIdx

/-- Entry (t·10000 + p, k) of an array of 100000 rows: where entry (p, k) of its t-th block of 10000 rows sits. -/
def rowIx {K : ℕ} (t : Fin 10) (p : Fin 10000) (k : Fin K) : (⟨2, ![100000, K]⟩ : Shape).Idx :=
  ix2 ⟨t.val * 10000 + p.val, by have := t.isLt; have := p.isLt; omega⟩ k

/-- Block t of the rows: entry (p, k) of the block is entry (t·10000 + p, k) of the whole array. -/
def RowsOf {K : ℕ} (t : Fin 10) (blk : FVec Ideal (⟨2, ![10000, K]⟩ : Shape) .f32) (whole : FVec Ideal (⟨2, ![100000, K]⟩ : Shape) .f32) : Prop :=
  ∀ (p : Fin 10000) (k : Fin K), blk (ix2 p k) = whole (rowIx t p k)

/-! ## Entry-by-entry operations commute with taking a block of rows -/

/-- A sum of two arrays, entry by entry. -/
theorem rows_addf {K : ℕ} {t : Fin 10} {a b : FVec Ideal (⟨2, ![10000, K]⟩ : Shape) .f32} {A B : FVec Ideal (⟨2, ![100000, K]⟩ : Shape) .f32}
    (ha : RowsOf t a A) (hb : RowsOf t b B) : RowsOf t (addf a b) (addf A B) := fun p k =>
  show a (ix2 p k) + b (ix2 p k) = A (rowIx t p k) + B (rowIx t p k) by rw [ha p k, hb p k]

/-- The larger of two arrays, entry by entry. -/
theorem rows_max {K : ℕ} {t : Fin 10} {a b : FVec Ideal (⟨2, ![10000, K]⟩ : Shape) .f32} {A B : FVec Ideal (⟨2, ![100000, K]⟩ : Shape) .f32}
    (ha : RowsOf t a A) (hb : RowsOf t b B) : RowsOf t (maximumf a b) (maximumf A B) := fun p k =>
  show max (a (ix2 p k)) (b (ix2 p k)) = max (A (rowIx t p k)) (B (rowIx t p k)) by rw [ha p k, hb p k]

/-- tanh of every entry: over the extended reals the kernel's tanh and the reference's are one function. -/
theorem rows_tanh {K : ℕ} {t : Fin 10} {a : FVec Ideal (⟨2, ![10000, K]⟩ : Shape) .f32} {A : FVec Ideal (⟨2, ![100000, K]⟩ : Shape) .f32}
    (ha : RowsOf t a A) : RowsOf t (tanh a) (Host.tanh A) := fun p k =>
  show Ideal.tanh (a (ix2 p k)) = Ideal.tanh (A (rowIx t p k)) from congrArg Ideal.tanh (ha p k)

/-- The array that holds the zero word everywhere: both sides read the same word at every entry. -/
theorem rows_zero32 (t : Fin 10) :
    RowsOf t (broadcast Cert.KernelIdeal.S10000x32 (Scalar.ofBits (F := Ideal) .f32 0x00000000#32))
      (broadcastInDim Cert.ReferenceIdeal.S100000x32 ![] Cert.ReferenceIdeal.Gen.bcast_S_S100000x32 (constant (F := Ideal) Cert.ReferenceIdeal.S_ .f32 0x00000000#32)) :=
  fun _ _ => rfl

/-- A cast of a block to its own shape changes nothing. -/
theorem rows_cast {t : Fin 10} {a : FVec Ideal Cert.KernelIdeal.S10000x32 .f32} {A : FVec Ideal Cert.ReferenceIdeal.S100000x32 .f32} (ha : RowsOf t a A) :
    RowsOf t (shapeCast Cert.KernelIdeal.S10000x32 a Cert.KernelIdeal.Gen.shapeCasts_S10000x32_S10000x32) A := by
  rw [shapeCast_self]; exact ha

/-! ## The bias rows -/

/-- The block's bias row: a vector of 64 laid as one row and repeated down 10000 rows reads, at (p, q), the vector at q. -/
theorem kbias64_apply (b : FVec Ideal Cert.KernelIdeal.S64 .f32) (p : Fin 10000) (q : Fin 64) :
    broadcastTo Cert.KernelIdeal.S10000x64 (shapeCast Cert.KernelIdeal.S1x64 b Cert.KernelIdeal.Gen.shapeCasts_S64_S1x64) Cert.KernelIdeal.Gen.broadcasts_S1x64_S10000x64 (ix2 p q)
      = b (ix1 q) :=
  (broadcastTo_1b_ab_apply _ _ p q).trans (shapeCast_a_1a_apply b _ 0 q)

/-- The whole array's bias: the same vector repeated down 100000 rows reads, at (i, q), the vector at q. -/
theorem rbias64_apply (b : FVec Ideal Cert.ReferenceIdeal.S64 .f32) (i : Fin 100000) (q : Fin 64) :
    bias64 (F := Ideal) b (ix2 i q) = b (ix1 q) := by
  unfold bias64
  refine (broadcastInDim_apply _ _ _ (ix2 i q) (ix2 (0 : Fin 1) q) (fun a => match a with
    | ⟨0, _⟩ => by show 0 = if (1 : Nat) = 1 then 0 else i.val; rw [if_pos rfl]
    | ⟨1, _⟩ => by show q.val = if (64 : Nat) = 1 then 0 else q.val; rw [if_neg (by decide)])).trans ?_
  exact broadcastInDim_apply _ _ b (ix2 (0 : Fin 1) q) (ix1 q) (fun a => match a with
    | ⟨0, _⟩ => by show q.val = if (64 : Nat) = 1 then 0 else q.val; rw [if_neg (by decide)])

/-- The bias is the same on every row, so its block t is the block's bias. -/
theorem rows_bias64 {t : Fin 10} (b : FVec Ideal Cert.KernelIdeal.S64 .f32) :
    RowsOf t (broadcastTo Cert.KernelIdeal.S10000x64 (shapeCast Cert.KernelIdeal.S1x64 b Cert.KernelIdeal.Gen.shapeCasts_S64_S1x64) Cert.KernelIdeal.Gen.broadcasts_S1x64_S10000x64)
      (bias64 (F := Ideal) b) := fun p q =>
  (kbias64_apply b p q).trans (rbias64_apply b _ q).symm

/-- The block's bias row: a vector of 32 laid as one row and repeated down 10000 rows reads, at (p, q), the vector at q. -/
theorem kbias32_apply (b : FVec Ideal Cert.KernelIdeal.S32 .f32) (p : Fin 10000) (q : Fin 32) :
    broadcastTo Cert.KernelIdeal.S10000x32 (shapeCast Cert.KernelIdeal.S1x32 b Cert.KernelIdeal.Gen.shapeCasts_S32_S1x32) Cert.KernelIdeal.Gen.broadcasts_S1x32_S10000x32 (ix2 p q)
      = b (ix1 q) :=
  (broadcastTo_1b_ab_apply _ _ p q).trans (shapeCast_a_1a_apply b _ 0 q)

/-- The whole array's bias: the same vector repeated down 100000 rows reads, at (i, q), the vector at q. -/
theorem rbias32_apply (b : FVec Ideal Cert.ReferenceIdeal.S32 .f32) (i : Fin 100000) (q : Fin 32) :
    bias32 (F := Ideal) b (ix2 i q) = b (ix1 q) := by
  unfold bias32
  refine (broadcastInDim_apply _ _ _ (ix2 i q) (ix2 (0 : Fin 1) q) (fun a => match a with
    | ⟨0, _⟩ => by show 0 = if (1 : Nat) = 1 then 0 else i.val; rw [if_pos rfl]
    | ⟨1, _⟩ => by show q.val = if (32 : Nat) = 1 then 0 else q.val; rw [if_neg (by decide)])).trans ?_
  exact broadcastInDim_apply _ _ b (ix2 (0 : Fin 1) q) (ix1 q) (fun a => match a with
    | ⟨0, _⟩ => by show q.val = if (32 : Nat) = 1 then 0 else q.val; rw [if_neg (by decide)])

/-- The bias is the same on every row, so its block t is the block's bias. -/
theorem rows_bias32 {t : Fin 10} (b : FVec Ideal Cert.KernelIdeal.S32 .f32) :
    RowsOf t (broadcastTo Cert.KernelIdeal.S10000x32 (shapeCast Cert.KernelIdeal.S1x32 b Cert.KernelIdeal.Gen.shapeCasts_S32_S1x32) Cert.KernelIdeal.Gen.broadcasts_S1x32_S10000x32)
      (bias32 (F := Ideal) b) := fun p q =>
  (kbias32_apply b p q).trans (rbias32_apply b _ q).symm

/-- The block's bias row: a vector of 1 laid as one row and repeated down 10000 rows reads, at (p, q), the vector at q. -/
theorem kbias1_apply (b : FVec Ideal Cert.KernelIdeal.S1 .f32) (p : Fin 10000) (q : Fin 1) :
    broadcastTo Cert.KernelIdeal.S10000x1 (shapeCast Cert.KernelIdeal.S1x1 b Cert.KernelIdeal.Gen.shapeCasts_S1_S1x1) Cert.KernelIdeal.Gen.broadcasts_S1x1_S10000x1 (ix2 p q)
      = b (ix1 q) :=
  (broadcastTo_1b_ab_apply _ _ p q).trans (shapeCast_a_1a_apply b _ 0 q)

/-- The whole array's bias: the same vector repeated down 100000 rows reads, at (i, q), the vector at q. -/
theorem rbias1_apply (b : FVec Ideal Cert.ReferenceIdeal.S1 .f32) (i : Fin 100000) (q : Fin 1) :
    bias1 (F := Ideal) b (ix2 i q) = b (ix1 q) := by
  unfold bias1
  refine (broadcastInDim_apply _ _ _ (ix2 i q) (ix2 (0 : Fin 1) q) (fun a => match a with
    | ⟨0, _⟩ => by show 0 = if (1 : Nat) = 1 then 0 else i.val; rw [if_pos rfl]
    | ⟨1, _⟩ => by show q.val = if (1 : Nat) = 1 then 0 else q.val; rw [if_pos rfl]; omega)).trans ?_
  exact broadcastInDim_apply _ _ b (ix2 (0 : Fin 1) q) (ix1 q) (fun a => match a with
    | ⟨0, _⟩ => by show q.val = if (1 : Nat) = 1 then 0 else q.val; rw [if_pos rfl]; omega)

/-- The bias is the same on every row, so its block t is the block's bias. -/
theorem rows_bias1 {t : Fin 10} (b : FVec Ideal Cert.KernelIdeal.S1 .f32) :
    RowsOf t (broadcastTo Cert.KernelIdeal.S10000x1 (shapeCast Cert.KernelIdeal.S1x1 b Cert.KernelIdeal.Gen.shapeCasts_S1_S1x1) Cert.KernelIdeal.Gen.broadcasts_S1x1_S10000x1)
      (bias1 (F := Ideal) b) := fun p q =>
  (kbias1_apply b p q).trans (rbias1_apply b _ q).symm

/-! ## The four matrix products -/

/-! ### The block's product [10000, 6] · [6, 64] -/

theorem kdot6_l0 (i : Cert.KernelIdeal.S10000x64.Idx) (q : Cert.KernelIdeal.dot_S10000x6_S6x64_S10000x64_1_0_0_1_n_n.contr.Idx) :
    (Cert.KernelIdeal.dot_S10000x6_S6x64_S10000x64_1_0_0_1_n_n.lhsIdx i q 0).val = (i 0).val := by
  unfold DotDims.lhsIdx
  rw [dif_neg (show ¬(0 : Fin Cert.KernelIdeal.S10000x6.rank) ∈ Cert.KernelIdeal.dot_S10000x6_S6x64_S10000x64_1_0_0_1_n_n.lhsBatch by decide), dif_pos (show (0 : Fin Cert.KernelIdeal.S10000x6.rank) ∈ Cert.KernelIdeal.dot_S10000x6_S6x64_S10000x64_1_0_0_1_n_n.lhsNonContracting by decide)]
  rfl
theorem kdot6_l1 (i : Cert.KernelIdeal.S10000x64.Idx) (q : Cert.KernelIdeal.dot_S10000x6_S6x64_S10000x64_1_0_0_1_n_n.contr.Idx) :
    (Cert.KernelIdeal.dot_S10000x6_S6x64_S10000x64_1_0_0_1_n_n.lhsIdx i q 1).val = (q ⟨0, by decide⟩).val :=
  Cert.KernelIdeal.dot_S10000x6_S6x64_S10000x64_1_0_0_1_n_n.lhsIdx_val_of_single rfl i q
theorem kdot6_r0 (i : Cert.KernelIdeal.S10000x64.Idx) (q : Cert.KernelIdeal.dot_S10000x6_S6x64_S10000x64_1_0_0_1_n_n.contr.Idx) :
    (Cert.KernelIdeal.dot_S10000x6_S6x64_S10000x64_1_0_0_1_n_n.rhsIdx i q 0).val = (q ⟨0, by decide⟩).val :=
  Cert.KernelIdeal.dot_S10000x6_S6x64_S10000x64_1_0_0_1_n_n.rhsIdx_val_of_single rfl i q
theorem kdot6_r1 (i : Cert.KernelIdeal.S10000x64.Idx) (q : Cert.KernelIdeal.dot_S10000x6_S6x64_S10000x64_1_0_0_1_n_n.contr.Idx) :
    (Cert.KernelIdeal.dot_S10000x6_S6x64_S10000x64_1_0_0_1_n_n.rhsIdx i q 1).val = (i 1).val := by
  unfold DotDims.rhsIdx
  rw [dif_neg (show ¬(1 : Fin Cert.KernelIdeal.S6x64.rank) ∈ Cert.KernelIdeal.dot_S10000x6_S6x64_S10000x64_1_0_0_1_n_n.rhsBatch by decide), dif_pos (show (1 : Fin Cert.KernelIdeal.S6x64.rank) ∈ Cert.KernelIdeal.dot_S10000x6_S6x64_S10000x64_1_0_0_1_n_n.rhsNonContracting by decide)]
  rfl
/-- The sum over the one contracted axis, written over the feature k < 6: entry (p, q) is Σₖ A(p, k) · B(k, q). -/
theorem kdot6_sum (A : FVec Ideal Cert.KernelIdeal.S10000x6 .f32) (B : FVec Ideal Cert.KernelIdeal.S6x64 .f32) (p : Fin 10000) (q : Fin 64) :
    (∑ k : Cert.KernelIdeal.dot_S10000x6_S6x64_S10000x64_1_0_0_1_n_n.contr.Idx, A (Cert.KernelIdeal.dot_S10000x6_S6x64_S10000x64_1_0_0_1_n_n.lhsIdx (ix2 p q) k) * B (Cert.KernelIdeal.dot_S10000x6_S6x64_S10000x64_1_0_0_1_n_n.rhsIdx (ix2 p q) k))
      = ∑ k : Fin 6, A (ix2 p k) * B (ix2 k q) := by
  rw [← Equiv.sum_comp (contrEquiv1 Cert.KernelIdeal.dot_S10000x6_S6x64_S10000x64_1_0_0_1_n_n 6 rfl rfl).symm]
  refine Finset.sum_congr rfl fun k _ => ?_
  have hk := contrEquiv1_symm_val Cert.KernelIdeal.dot_S10000x6_S6x64_S10000x64_1_0_0_1_n_n 6 rfl rfl k
  have el : Cert.KernelIdeal.dot_S10000x6_S6x64_S10000x64_1_0_0_1_n_n.lhsIdx (ix2 p q) ((contrEquiv1 Cert.KernelIdeal.dot_S10000x6_S6x64_S10000x64_1_0_0_1_n_n 6 rfl rfl).symm k) = ix2 p k := funext fun a => Fin.ext (by
    match a with
    | ⟨0, _⟩ => exact kdot6_l0 _ _
    | ⟨1, _⟩ => exact (kdot6_l1 _ _).trans hk)
  have er : Cert.KernelIdeal.dot_S10000x6_S6x64_S10000x64_1_0_0_1_n_n.rhsIdx (ix2 p q) ((contrEquiv1 Cert.KernelIdeal.dot_S10000x6_S6x64_S10000x64_1_0_0_1_n_n 6 rfl rfl).symm k) = ix2 k q := funext fun a => Fin.ext (by
    match a with
    | ⟨0, _⟩ => exact (kdot6_r0 _ _).trans hk
    | ⟨1, _⟩ => exact kdot6_r1 _ _)
  rw [el, er]

/-! ### The whole array's product [100000, 6] · [6, 64] -/

theorem rdot6_l0 (i : Cert.ReferenceIdeal.S100000x64.Idx) (q : Cert.ReferenceIdeal.dot_S100000x6_S6x64_S100000x64_1_0_0_1_n_n.contr.Idx) :
    (Cert.ReferenceIdeal.dot_S100000x6_S6x64_S100000x64_1_0_0_1_n_n.lhsIdx i q 0).val = (i 0).val := by
  unfold DotDims.lhsIdx
  rw [dif_neg (show ¬(0 : Fin Cert.ReferenceIdeal.S100000x6.rank) ∈ Cert.ReferenceIdeal.dot_S100000x6_S6x64_S100000x64_1_0_0_1_n_n.lhsBatch by decide), dif_pos (show (0 : Fin Cert.ReferenceIdeal.S100000x6.rank) ∈ Cert.ReferenceIdeal.dot_S100000x6_S6x64_S100000x64_1_0_0_1_n_n.lhsNonContracting by decide)]
  rfl
theorem rdot6_l1 (i : Cert.ReferenceIdeal.S100000x64.Idx) (q : Cert.ReferenceIdeal.dot_S100000x6_S6x64_S100000x64_1_0_0_1_n_n.contr.Idx) :
    (Cert.ReferenceIdeal.dot_S100000x6_S6x64_S100000x64_1_0_0_1_n_n.lhsIdx i q 1).val = (q ⟨0, by decide⟩).val :=
  Cert.ReferenceIdeal.dot_S100000x6_S6x64_S100000x64_1_0_0_1_n_n.lhsIdx_val_of_single rfl i q
theorem rdot6_r0 (i : Cert.ReferenceIdeal.S100000x64.Idx) (q : Cert.ReferenceIdeal.dot_S100000x6_S6x64_S100000x64_1_0_0_1_n_n.contr.Idx) :
    (Cert.ReferenceIdeal.dot_S100000x6_S6x64_S100000x64_1_0_0_1_n_n.rhsIdx i q 0).val = (q ⟨0, by decide⟩).val :=
  Cert.ReferenceIdeal.dot_S100000x6_S6x64_S100000x64_1_0_0_1_n_n.rhsIdx_val_of_single rfl i q
theorem rdot6_r1 (i : Cert.ReferenceIdeal.S100000x64.Idx) (q : Cert.ReferenceIdeal.dot_S100000x6_S6x64_S100000x64_1_0_0_1_n_n.contr.Idx) :
    (Cert.ReferenceIdeal.dot_S100000x6_S6x64_S100000x64_1_0_0_1_n_n.rhsIdx i q 1).val = (i 1).val := by
  unfold DotDims.rhsIdx
  rw [dif_neg (show ¬(1 : Fin Cert.ReferenceIdeal.S6x64.rank) ∈ Cert.ReferenceIdeal.dot_S100000x6_S6x64_S100000x64_1_0_0_1_n_n.rhsBatch by decide), dif_pos (show (1 : Fin Cert.ReferenceIdeal.S6x64.rank) ∈ Cert.ReferenceIdeal.dot_S100000x6_S6x64_S100000x64_1_0_0_1_n_n.rhsNonContracting by decide)]
  rfl
/-- The sum over the one contracted axis, written over the feature k < 6: entry (p, q) is Σₖ A(p, k) · B(k, q). -/
theorem rdot6_sum (A : FVec Ideal Cert.ReferenceIdeal.S100000x6 .f32) (B : FVec Ideal Cert.ReferenceIdeal.S6x64 .f32) (p : Fin 100000) (q : Fin 64) :
    (∑ k : Cert.ReferenceIdeal.dot_S100000x6_S6x64_S100000x64_1_0_0_1_n_n.contr.Idx, A (Cert.ReferenceIdeal.dot_S100000x6_S6x64_S100000x64_1_0_0_1_n_n.lhsIdx (ix2 p q) k) * B (Cert.ReferenceIdeal.dot_S100000x6_S6x64_S100000x64_1_0_0_1_n_n.rhsIdx (ix2 p q) k))
      = ∑ k : Fin 6, A (ix2 p k) * B (ix2 k q) := by
  rw [← Equiv.sum_comp (contrEquiv1 Cert.ReferenceIdeal.dot_S100000x6_S6x64_S100000x64_1_0_0_1_n_n 6 rfl rfl).symm]
  refine Finset.sum_congr rfl fun k _ => ?_
  have hk := contrEquiv1_symm_val Cert.ReferenceIdeal.dot_S100000x6_S6x64_S100000x64_1_0_0_1_n_n 6 rfl rfl k
  have el : Cert.ReferenceIdeal.dot_S100000x6_S6x64_S100000x64_1_0_0_1_n_n.lhsIdx (ix2 p q) ((contrEquiv1 Cert.ReferenceIdeal.dot_S100000x6_S6x64_S100000x64_1_0_0_1_n_n 6 rfl rfl).symm k) = ix2 p k := funext fun a => Fin.ext (by
    match a with
    | ⟨0, _⟩ => exact rdot6_l0 _ _
    | ⟨1, _⟩ => exact (rdot6_l1 _ _).trans hk)
  have er : Cert.ReferenceIdeal.dot_S100000x6_S6x64_S100000x64_1_0_0_1_n_n.rhsIdx (ix2 p q) ((contrEquiv1 Cert.ReferenceIdeal.dot_S100000x6_S6x64_S100000x64_1_0_0_1_n_n 6 rfl rfl).symm k) = ix2 k q := funext fun a => Fin.ext (by
    match a with
    | ⟨0, _⟩ => exact (rdot6_r0 _ _).trans hk
    | ⟨1, _⟩ => exact rdot6_r1 _ _)
  rw [el, er]

/-- The block's product into a zero accumulator, the operands' formats narrowed (no change over the extended reals), is the plain sum over the feature. -/
theorem kdot6_apply (A : FVec Ideal Cert.KernelIdeal.S10000x6 .f32) (B : FVec Ideal Cert.KernelIdeal.S6x64 .f32) (p : Fin 10000) (q : Fin 64) :
    matmul Cert.KernelIdeal.dot_S10000x6_S6x64_S10000x64_1_0_0_1_n_n none (truncf .bf16 A Cert.KernelIdeal.Gen.bitsLt_bf16_f32) (truncf .bf16 B Cert.KernelIdeal.Gen.bitsLt_bf16_f32)
      (constant Cert.KernelIdeal.S10000x64 .f32 0x00000000#32) (ix2 p q) = ∑ k : Fin 6, A (ix2 p k) * B (ix2 k q) := by
  simp only [matmul]
  rw [Ideal.matmul_constant_zero_apply]
  exact kdot6_sum A B p q

/-- The whole array's product is the same sum. -/
theorem rdot6_apply (A : FVec Ideal Cert.ReferenceIdeal.S100000x6 .f32) (B : FVec Ideal Cert.ReferenceIdeal.S6x64 .f32) (p : Fin 100000) (q : Fin 64) :
    Host.dotGeneral Cert.ReferenceIdeal.dot_S100000x6_S6x64_S100000x64_1_0_0_1_n_n none A B (ix2 p q) = ∑ k : Fin 6, A (ix2 p k) * B (ix2 k q) := by
  simp only [Host.dotGeneral]
  rw [Ideal.dotGeneral_apply]
  exact rdot6_sum A B p q

/-- A product with a [6, 64] weight matrix contracts over the 6 features of one row, so it commutes with taking block t of the rows. -/
theorem rows_dot6 {t : Fin 10} {Ab : FVec Ideal Cert.KernelIdeal.S10000x6 .f32} {A : FVec Ideal Cert.ReferenceIdeal.S100000x6 .f32}
    (B : FVec Ideal Cert.KernelIdeal.S6x64 .f32) (h : RowsOf t Ab A) :
    RowsOf t (matmul Cert.KernelIdeal.dot_S10000x6_S6x64_S10000x64_1_0_0_1_n_n none (truncf .bf16 Ab Cert.KernelIdeal.Gen.bitsLt_bf16_f32) (truncf .bf16 B Cert.KernelIdeal.Gen.bitsLt_bf16_f32)
        (constant Cert.KernelIdeal.S10000x64 .f32 0x00000000#32))
      (Host.dotGeneral Cert.ReferenceIdeal.dot_S100000x6_S6x64_S100000x64_1_0_0_1_n_n none A B) := fun p q =>
  (kdot6_apply Ab B p q).trans
    ((Finset.sum_congr rfl fun k _ => congrArg (· * B (ix2 k q)) (h p k)).trans (rdot6_apply A B _ q).symm)

/-! ### The block's product [10000, 64] · [64, 32] -/

theorem kdot64_l0 (i : Cert.KernelIdeal.S10000x32.Idx) (q : Cert.KernelIdeal.dot_S10000x64_S64x32_S10000x32_1_0_0_1_n_n.contr.Idx) :
    (Cert.KernelIdeal.dot_S10000x64_S64x32_S10000x32_1_0_0_1_n_n.lhsIdx i q 0).val = (i 0).val := by
  unfold DotDims.lhsIdx
  rw [dif_neg (show ¬(0 : Fin Cert.KernelIdeal.S10000x64.rank) ∈ Cert.KernelIdeal.dot_S10000x64_S64x32_S10000x32_1_0_0_1_n_n.lhsBatch by decide), dif_pos (show (0 : Fin Cert.KernelIdeal.S10000x64.rank) ∈ Cert.KernelIdeal.dot_S10000x64_S64x32_S10000x32_1_0_0_1_n_n.lhsNonContracting by decide)]
  rfl
theorem kdot64_l1 (i : Cert.KernelIdeal.S10000x32.Idx) (q : Cert.KernelIdeal.dot_S10000x64_S64x32_S10000x32_1_0_0_1_n_n.contr.Idx) :
    (Cert.KernelIdeal.dot_S10000x64_S64x32_S10000x32_1_0_0_1_n_n.lhsIdx i q 1).val = (q ⟨0, by decide⟩).val :=
  Cert.KernelIdeal.dot_S10000x64_S64x32_S10000x32_1_0_0_1_n_n.lhsIdx_val_of_single rfl i q
theorem kdot64_r0 (i : Cert.KernelIdeal.S10000x32.Idx) (q : Cert.KernelIdeal.dot_S10000x64_S64x32_S10000x32_1_0_0_1_n_n.contr.Idx) :
    (Cert.KernelIdeal.dot_S10000x64_S64x32_S10000x32_1_0_0_1_n_n.rhsIdx i q 0).val = (q ⟨0, by decide⟩).val :=
  Cert.KernelIdeal.dot_S10000x64_S64x32_S10000x32_1_0_0_1_n_n.rhsIdx_val_of_single rfl i q
theorem kdot64_r1 (i : Cert.KernelIdeal.S10000x32.Idx) (q : Cert.KernelIdeal.dot_S10000x64_S64x32_S10000x32_1_0_0_1_n_n.contr.Idx) :
    (Cert.KernelIdeal.dot_S10000x64_S64x32_S10000x32_1_0_0_1_n_n.rhsIdx i q 1).val = (i 1).val := by
  unfold DotDims.rhsIdx
  rw [dif_neg (show ¬(1 : Fin Cert.KernelIdeal.S64x32.rank) ∈ Cert.KernelIdeal.dot_S10000x64_S64x32_S10000x32_1_0_0_1_n_n.rhsBatch by decide), dif_pos (show (1 : Fin Cert.KernelIdeal.S64x32.rank) ∈ Cert.KernelIdeal.dot_S10000x64_S64x32_S10000x32_1_0_0_1_n_n.rhsNonContracting by decide)]
  rfl
/-- The sum over the one contracted axis, written over the feature k < 64: entry (p, q) is Σₖ A(p, k) · B(k, q). -/
theorem kdot64_sum (A : FVec Ideal Cert.KernelIdeal.S10000x64 .f32) (B : FVec Ideal Cert.KernelIdeal.S64x32 .f32) (p : Fin 10000) (q : Fin 32) :
    (∑ k : Cert.KernelIdeal.dot_S10000x64_S64x32_S10000x32_1_0_0_1_n_n.contr.Idx, A (Cert.KernelIdeal.dot_S10000x64_S64x32_S10000x32_1_0_0_1_n_n.lhsIdx (ix2 p q) k) * B (Cert.KernelIdeal.dot_S10000x64_S64x32_S10000x32_1_0_0_1_n_n.rhsIdx (ix2 p q) k))
      = ∑ k : Fin 64, A (ix2 p k) * B (ix2 k q) := by
  rw [← Equiv.sum_comp (contrEquiv1 Cert.KernelIdeal.dot_S10000x64_S64x32_S10000x32_1_0_0_1_n_n 64 rfl rfl).symm]
  refine Finset.sum_congr rfl fun k _ => ?_
  have hk := contrEquiv1_symm_val Cert.KernelIdeal.dot_S10000x64_S64x32_S10000x32_1_0_0_1_n_n 64 rfl rfl k
  have el : Cert.KernelIdeal.dot_S10000x64_S64x32_S10000x32_1_0_0_1_n_n.lhsIdx (ix2 p q) ((contrEquiv1 Cert.KernelIdeal.dot_S10000x64_S64x32_S10000x32_1_0_0_1_n_n 64 rfl rfl).symm k) = ix2 p k := funext fun a => Fin.ext (by
    match a with
    | ⟨0, _⟩ => exact kdot64_l0 _ _
    | ⟨1, _⟩ => exact (kdot64_l1 _ _).trans hk)
  have er : Cert.KernelIdeal.dot_S10000x64_S64x32_S10000x32_1_0_0_1_n_n.rhsIdx (ix2 p q) ((contrEquiv1 Cert.KernelIdeal.dot_S10000x64_S64x32_S10000x32_1_0_0_1_n_n 64 rfl rfl).symm k) = ix2 k q := funext fun a => Fin.ext (by
    match a with
    | ⟨0, _⟩ => exact (kdot64_r0 _ _).trans hk
    | ⟨1, _⟩ => exact kdot64_r1 _ _)
  rw [el, er]

/-! ### The whole array's product [100000, 64] · [64, 32] -/

theorem rdot64_l0 (i : Cert.ReferenceIdeal.S100000x32.Idx) (q : Cert.ReferenceIdeal.dot_S100000x64_S64x32_S100000x32_1_0_0_1_n_n.contr.Idx) :
    (Cert.ReferenceIdeal.dot_S100000x64_S64x32_S100000x32_1_0_0_1_n_n.lhsIdx i q 0).val = (i 0).val := by
  unfold DotDims.lhsIdx
  rw [dif_neg (show ¬(0 : Fin Cert.ReferenceIdeal.S100000x64.rank) ∈ Cert.ReferenceIdeal.dot_S100000x64_S64x32_S100000x32_1_0_0_1_n_n.lhsBatch by decide), dif_pos (show (0 : Fin Cert.ReferenceIdeal.S100000x64.rank) ∈ Cert.ReferenceIdeal.dot_S100000x64_S64x32_S100000x32_1_0_0_1_n_n.lhsNonContracting by decide)]
  rfl
theorem rdot64_l1 (i : Cert.ReferenceIdeal.S100000x32.Idx) (q : Cert.ReferenceIdeal.dot_S100000x64_S64x32_S100000x32_1_0_0_1_n_n.contr.Idx) :
    (Cert.ReferenceIdeal.dot_S100000x64_S64x32_S100000x32_1_0_0_1_n_n.lhsIdx i q 1).val = (q ⟨0, by decide⟩).val :=
  Cert.ReferenceIdeal.dot_S100000x64_S64x32_S100000x32_1_0_0_1_n_n.lhsIdx_val_of_single rfl i q
theorem rdot64_r0 (i : Cert.ReferenceIdeal.S100000x32.Idx) (q : Cert.ReferenceIdeal.dot_S100000x64_S64x32_S100000x32_1_0_0_1_n_n.contr.Idx) :
    (Cert.ReferenceIdeal.dot_S100000x64_S64x32_S100000x32_1_0_0_1_n_n.rhsIdx i q 0).val = (q ⟨0, by decide⟩).val :=
  Cert.ReferenceIdeal.dot_S100000x64_S64x32_S100000x32_1_0_0_1_n_n.rhsIdx_val_of_single rfl i q
theorem rdot64_r1 (i : Cert.ReferenceIdeal.S100000x32.Idx) (q : Cert.ReferenceIdeal.dot_S100000x64_S64x32_S100000x32_1_0_0_1_n_n.contr.Idx) :
    (Cert.ReferenceIdeal.dot_S100000x64_S64x32_S100000x32_1_0_0_1_n_n.rhsIdx i q 1).val = (i 1).val := by
  unfold DotDims.rhsIdx
  rw [dif_neg (show ¬(1 : Fin Cert.ReferenceIdeal.S64x32.rank) ∈ Cert.ReferenceIdeal.dot_S100000x64_S64x32_S100000x32_1_0_0_1_n_n.rhsBatch by decide), dif_pos (show (1 : Fin Cert.ReferenceIdeal.S64x32.rank) ∈ Cert.ReferenceIdeal.dot_S100000x64_S64x32_S100000x32_1_0_0_1_n_n.rhsNonContracting by decide)]
  rfl
/-- The sum over the one contracted axis, written over the feature k < 64: entry (p, q) is Σₖ A(p, k) · B(k, q). -/
theorem rdot64_sum (A : FVec Ideal Cert.ReferenceIdeal.S100000x64 .f32) (B : FVec Ideal Cert.ReferenceIdeal.S64x32 .f32) (p : Fin 100000) (q : Fin 32) :
    (∑ k : Cert.ReferenceIdeal.dot_S100000x64_S64x32_S100000x32_1_0_0_1_n_n.contr.Idx, A (Cert.ReferenceIdeal.dot_S100000x64_S64x32_S100000x32_1_0_0_1_n_n.lhsIdx (ix2 p q) k) * B (Cert.ReferenceIdeal.dot_S100000x64_S64x32_S100000x32_1_0_0_1_n_n.rhsIdx (ix2 p q) k))
      = ∑ k : Fin 64, A (ix2 p k) * B (ix2 k q) := by
  rw [← Equiv.sum_comp (contrEquiv1 Cert.ReferenceIdeal.dot_S100000x64_S64x32_S100000x32_1_0_0_1_n_n 64 rfl rfl).symm]
  refine Finset.sum_congr rfl fun k _ => ?_
  have hk := contrEquiv1_symm_val Cert.ReferenceIdeal.dot_S100000x64_S64x32_S100000x32_1_0_0_1_n_n 64 rfl rfl k
  have el : Cert.ReferenceIdeal.dot_S100000x64_S64x32_S100000x32_1_0_0_1_n_n.lhsIdx (ix2 p q) ((contrEquiv1 Cert.ReferenceIdeal.dot_S100000x64_S64x32_S100000x32_1_0_0_1_n_n 64 rfl rfl).symm k) = ix2 p k := funext fun a => Fin.ext (by
    match a with
    | ⟨0, _⟩ => exact rdot64_l0 _ _
    | ⟨1, _⟩ => exact (rdot64_l1 _ _).trans hk)
  have er : Cert.ReferenceIdeal.dot_S100000x64_S64x32_S100000x32_1_0_0_1_n_n.rhsIdx (ix2 p q) ((contrEquiv1 Cert.ReferenceIdeal.dot_S100000x64_S64x32_S100000x32_1_0_0_1_n_n 64 rfl rfl).symm k) = ix2 k q := funext fun a => Fin.ext (by
    match a with
    | ⟨0, _⟩ => exact (rdot64_r0 _ _).trans hk
    | ⟨1, _⟩ => exact rdot64_r1 _ _)
  rw [el, er]

/-- The block's product into a zero accumulator, the operands' formats narrowed (no change over the extended reals), is the plain sum over the feature. -/
theorem kdot64_apply (A : FVec Ideal Cert.KernelIdeal.S10000x64 .f32) (B : FVec Ideal Cert.KernelIdeal.S64x32 .f32) (p : Fin 10000) (q : Fin 32) :
    matmul Cert.KernelIdeal.dot_S10000x64_S64x32_S10000x32_1_0_0_1_n_n none (truncf .bf16 A Cert.KernelIdeal.Gen.bitsLt_bf16_f32) (truncf .bf16 B Cert.KernelIdeal.Gen.bitsLt_bf16_f32)
      (constant Cert.KernelIdeal.S10000x32 .f32 0x00000000#32) (ix2 p q) = ∑ k : Fin 64, A (ix2 p k) * B (ix2 k q) := by
  simp only [matmul]
  rw [Ideal.matmul_constant_zero_apply]
  exact kdot64_sum A B p q

/-- The whole array's product is the same sum. -/
theorem rdot64_apply (A : FVec Ideal Cert.ReferenceIdeal.S100000x64 .f32) (B : FVec Ideal Cert.ReferenceIdeal.S64x32 .f32) (p : Fin 100000) (q : Fin 32) :
    Host.dotGeneral Cert.ReferenceIdeal.dot_S100000x64_S64x32_S100000x32_1_0_0_1_n_n none A B (ix2 p q) = ∑ k : Fin 64, A (ix2 p k) * B (ix2 k q) := by
  simp only [Host.dotGeneral]
  rw [Ideal.dotGeneral_apply]
  exact rdot64_sum A B p q

/-- A product with a [64, 32] weight matrix contracts over the 64 features of one row, so it commutes with taking block t of the rows. -/
theorem rows_dot64 {t : Fin 10} {Ab : FVec Ideal Cert.KernelIdeal.S10000x64 .f32} {A : FVec Ideal Cert.ReferenceIdeal.S100000x64 .f32}
    (B : FVec Ideal Cert.KernelIdeal.S64x32 .f32) (h : RowsOf t Ab A) :
    RowsOf t (matmul Cert.KernelIdeal.dot_S10000x64_S64x32_S10000x32_1_0_0_1_n_n none (truncf .bf16 Ab Cert.KernelIdeal.Gen.bitsLt_bf16_f32) (truncf .bf16 B Cert.KernelIdeal.Gen.bitsLt_bf16_f32)
        (constant Cert.KernelIdeal.S10000x32 .f32 0x00000000#32))
      (Host.dotGeneral Cert.ReferenceIdeal.dot_S100000x64_S64x32_S100000x32_1_0_0_1_n_n none A B) := fun p q =>
  (kdot64_apply Ab B p q).trans
    ((Finset.sum_congr rfl fun k _ => congrArg (· * B (ix2 k q)) (h p k)).trans (rdot64_apply A B _ q).symm)

/-! ### The block's product [10000, 32] · [32, 32] -/

theorem kdot32_l0 (i : Cert.KernelIdeal.S10000x32.Idx) (q : Cert.KernelIdeal.dot_S10000x32_S32x32_S10000x32_1_0_0_1_n_n.contr.Idx) :
    (Cert.KernelIdeal.dot_S10000x32_S32x32_S10000x32_1_0_0_1_n_n.lhsIdx i q 0).val = (i 0).val := by
  unfold DotDims.lhsIdx
  rw [dif_neg (show ¬(0 : Fin Cert.KernelIdeal.S10000x32.rank) ∈ Cert.KernelIdeal.dot_S10000x32_S32x32_S10000x32_1_0_0_1_n_n.lhsBatch by decide), dif_pos (show (0 : Fin Cert.KernelIdeal.S10000x32.rank) ∈ Cert.KernelIdeal.dot_S10000x32_S32x32_S10000x32_1_0_0_1_n_n.lhsNonContracting by decide)]
  rfl
theorem kdot32_l1 (i : Cert.KernelIdeal.S10000x32.Idx) (q : Cert.KernelIdeal.dot_S10000x32_S32x32_S10000x32_1_0_0_1_n_n.contr.Idx) :
    (Cert.KernelIdeal.dot_S10000x32_S32x32_S10000x32_1_0_0_1_n_n.lhsIdx i q 1).val = (q ⟨0, by decide⟩).val :=
  Cert.KernelIdeal.dot_S10000x32_S32x32_S10000x32_1_0_0_1_n_n.lhsIdx_val_of_single rfl i q
theorem kdot32_r0 (i : Cert.KernelIdeal.S10000x32.Idx) (q : Cert.KernelIdeal.dot_S10000x32_S32x32_S10000x32_1_0_0_1_n_n.contr.Idx) :
    (Cert.KernelIdeal.dot_S10000x32_S32x32_S10000x32_1_0_0_1_n_n.rhsIdx i q 0).val = (q ⟨0, by decide⟩).val :=
  Cert.KernelIdeal.dot_S10000x32_S32x32_S10000x32_1_0_0_1_n_n.rhsIdx_val_of_single rfl i q
theorem kdot32_r1 (i : Cert.KernelIdeal.S10000x32.Idx) (q : Cert.KernelIdeal.dot_S10000x32_S32x32_S10000x32_1_0_0_1_n_n.contr.Idx) :
    (Cert.KernelIdeal.dot_S10000x32_S32x32_S10000x32_1_0_0_1_n_n.rhsIdx i q 1).val = (i 1).val := by
  unfold DotDims.rhsIdx
  rw [dif_neg (show ¬(1 : Fin Cert.KernelIdeal.S32x32.rank) ∈ Cert.KernelIdeal.dot_S10000x32_S32x32_S10000x32_1_0_0_1_n_n.rhsBatch by decide), dif_pos (show (1 : Fin Cert.KernelIdeal.S32x32.rank) ∈ Cert.KernelIdeal.dot_S10000x32_S32x32_S10000x32_1_0_0_1_n_n.rhsNonContracting by decide)]
  rfl
/-- The sum over the one contracted axis, written over the feature k < 32: entry (p, q) is Σₖ A(p, k) · B(k, q). -/
theorem kdot32_sum (A : FVec Ideal Cert.KernelIdeal.S10000x32 .f32) (B : FVec Ideal Cert.KernelIdeal.S32x32 .f32) (p : Fin 10000) (q : Fin 32) :
    (∑ k : Cert.KernelIdeal.dot_S10000x32_S32x32_S10000x32_1_0_0_1_n_n.contr.Idx, A (Cert.KernelIdeal.dot_S10000x32_S32x32_S10000x32_1_0_0_1_n_n.lhsIdx (ix2 p q) k) * B (Cert.KernelIdeal.dot_S10000x32_S32x32_S10000x32_1_0_0_1_n_n.rhsIdx (ix2 p q) k))
      = ∑ k : Fin 32, A (ix2 p k) * B (ix2 k q) := by
  rw [← Equiv.sum_comp (contrEquiv1 Cert.KernelIdeal.dot_S10000x32_S32x32_S10000x32_1_0_0_1_n_n 32 rfl rfl).symm]
  refine Finset.sum_congr rfl fun k _ => ?_
  have hk := contrEquiv1_symm_val Cert.KernelIdeal.dot_S10000x32_S32x32_S10000x32_1_0_0_1_n_n 32 rfl rfl k
  have el : Cert.KernelIdeal.dot_S10000x32_S32x32_S10000x32_1_0_0_1_n_n.lhsIdx (ix2 p q) ((contrEquiv1 Cert.KernelIdeal.dot_S10000x32_S32x32_S10000x32_1_0_0_1_n_n 32 rfl rfl).symm k) = ix2 p k := funext fun a => Fin.ext (by
    match a with
    | ⟨0, _⟩ => exact kdot32_l0 _ _
    | ⟨1, _⟩ => exact (kdot32_l1 _ _).trans hk)
  have er : Cert.KernelIdeal.dot_S10000x32_S32x32_S10000x32_1_0_0_1_n_n.rhsIdx (ix2 p q) ((contrEquiv1 Cert.KernelIdeal.dot_S10000x32_S32x32_S10000x32_1_0_0_1_n_n 32 rfl rfl).symm k) = ix2 k q := funext fun a => Fin.ext (by
    match a with
    | ⟨0, _⟩ => exact (kdot32_r0 _ _).trans hk
    | ⟨1, _⟩ => exact kdot32_r1 _ _)
  rw [el, er]

/-! ### The whole array's product [100000, 32] · [32, 32] -/

theorem rdot32_l0 (i : Cert.ReferenceIdeal.S100000x32.Idx) (q : Cert.ReferenceIdeal.dot_S100000x32_S32x32_S100000x32_1_0_0_1_n_n.contr.Idx) :
    (Cert.ReferenceIdeal.dot_S100000x32_S32x32_S100000x32_1_0_0_1_n_n.lhsIdx i q 0).val = (i 0).val := by
  unfold DotDims.lhsIdx
  rw [dif_neg (show ¬(0 : Fin Cert.ReferenceIdeal.S100000x32.rank) ∈ Cert.ReferenceIdeal.dot_S100000x32_S32x32_S100000x32_1_0_0_1_n_n.lhsBatch by decide), dif_pos (show (0 : Fin Cert.ReferenceIdeal.S100000x32.rank) ∈ Cert.ReferenceIdeal.dot_S100000x32_S32x32_S100000x32_1_0_0_1_n_n.lhsNonContracting by decide)]
  rfl
theorem rdot32_l1 (i : Cert.ReferenceIdeal.S100000x32.Idx) (q : Cert.ReferenceIdeal.dot_S100000x32_S32x32_S100000x32_1_0_0_1_n_n.contr.Idx) :
    (Cert.ReferenceIdeal.dot_S100000x32_S32x32_S100000x32_1_0_0_1_n_n.lhsIdx i q 1).val = (q ⟨0, by decide⟩).val :=
  Cert.ReferenceIdeal.dot_S100000x32_S32x32_S100000x32_1_0_0_1_n_n.lhsIdx_val_of_single rfl i q
theorem rdot32_r0 (i : Cert.ReferenceIdeal.S100000x32.Idx) (q : Cert.ReferenceIdeal.dot_S100000x32_S32x32_S100000x32_1_0_0_1_n_n.contr.Idx) :
    (Cert.ReferenceIdeal.dot_S100000x32_S32x32_S100000x32_1_0_0_1_n_n.rhsIdx i q 0).val = (q ⟨0, by decide⟩).val :=
  Cert.ReferenceIdeal.dot_S100000x32_S32x32_S100000x32_1_0_0_1_n_n.rhsIdx_val_of_single rfl i q
theorem rdot32_r1 (i : Cert.ReferenceIdeal.S100000x32.Idx) (q : Cert.ReferenceIdeal.dot_S100000x32_S32x32_S100000x32_1_0_0_1_n_n.contr.Idx) :
    (Cert.ReferenceIdeal.dot_S100000x32_S32x32_S100000x32_1_0_0_1_n_n.rhsIdx i q 1).val = (i 1).val := by
  unfold DotDims.rhsIdx
  rw [dif_neg (show ¬(1 : Fin Cert.ReferenceIdeal.S32x32.rank) ∈ Cert.ReferenceIdeal.dot_S100000x32_S32x32_S100000x32_1_0_0_1_n_n.rhsBatch by decide), dif_pos (show (1 : Fin Cert.ReferenceIdeal.S32x32.rank) ∈ Cert.ReferenceIdeal.dot_S100000x32_S32x32_S100000x32_1_0_0_1_n_n.rhsNonContracting by decide)]
  rfl
/-- The sum over the one contracted axis, written over the feature k < 32: entry (p, q) is Σₖ A(p, k) · B(k, q). -/
theorem rdot32_sum (A : FVec Ideal Cert.ReferenceIdeal.S100000x32 .f32) (B : FVec Ideal Cert.ReferenceIdeal.S32x32 .f32) (p : Fin 100000) (q : Fin 32) :
    (∑ k : Cert.ReferenceIdeal.dot_S100000x32_S32x32_S100000x32_1_0_0_1_n_n.contr.Idx, A (Cert.ReferenceIdeal.dot_S100000x32_S32x32_S100000x32_1_0_0_1_n_n.lhsIdx (ix2 p q) k) * B (Cert.ReferenceIdeal.dot_S100000x32_S32x32_S100000x32_1_0_0_1_n_n.rhsIdx (ix2 p q) k))
      = ∑ k : Fin 32, A (ix2 p k) * B (ix2 k q) := by
  rw [← Equiv.sum_comp (contrEquiv1 Cert.ReferenceIdeal.dot_S100000x32_S32x32_S100000x32_1_0_0_1_n_n 32 rfl rfl).symm]
  refine Finset.sum_congr rfl fun k _ => ?_
  have hk := contrEquiv1_symm_val Cert.ReferenceIdeal.dot_S100000x32_S32x32_S100000x32_1_0_0_1_n_n 32 rfl rfl k
  have el : Cert.ReferenceIdeal.dot_S100000x32_S32x32_S100000x32_1_0_0_1_n_n.lhsIdx (ix2 p q) ((contrEquiv1 Cert.ReferenceIdeal.dot_S100000x32_S32x32_S100000x32_1_0_0_1_n_n 32 rfl rfl).symm k) = ix2 p k := funext fun a => Fin.ext (by
    match a with
    | ⟨0, _⟩ => exact rdot32_l0 _ _
    | ⟨1, _⟩ => exact (rdot32_l1 _ _).trans hk)
  have er : Cert.ReferenceIdeal.dot_S100000x32_S32x32_S100000x32_1_0_0_1_n_n.rhsIdx (ix2 p q) ((contrEquiv1 Cert.ReferenceIdeal.dot_S100000x32_S32x32_S100000x32_1_0_0_1_n_n 32 rfl rfl).symm k) = ix2 k q := funext fun a => Fin.ext (by
    match a with
    | ⟨0, _⟩ => exact (rdot32_r0 _ _).trans hk
    | ⟨1, _⟩ => exact rdot32_r1 _ _)
  rw [el, er]

/-- The block's product into a zero accumulator, the operands' formats narrowed (no change over the extended reals), is the plain sum over the feature. -/
theorem kdot32_apply (A : FVec Ideal Cert.KernelIdeal.S10000x32 .f32) (B : FVec Ideal Cert.KernelIdeal.S32x32 .f32) (p : Fin 10000) (q : Fin 32) :
    matmul Cert.KernelIdeal.dot_S10000x32_S32x32_S10000x32_1_0_0_1_n_n none (truncf .bf16 A Cert.KernelIdeal.Gen.bitsLt_bf16_f32) (truncf .bf16 B Cert.KernelIdeal.Gen.bitsLt_bf16_f32)
      (constant Cert.KernelIdeal.S10000x32 .f32 0x00000000#32) (ix2 p q) = ∑ k : Fin 32, A (ix2 p k) * B (ix2 k q) := by
  simp only [matmul]
  rw [Ideal.matmul_constant_zero_apply]
  exact kdot32_sum A B p q

/-- The whole array's product is the same sum. -/
theorem rdot32_apply (A : FVec Ideal Cert.ReferenceIdeal.S100000x32 .f32) (B : FVec Ideal Cert.ReferenceIdeal.S32x32 .f32) (p : Fin 100000) (q : Fin 32) :
    Host.dotGeneral Cert.ReferenceIdeal.dot_S100000x32_S32x32_S100000x32_1_0_0_1_n_n none A B (ix2 p q) = ∑ k : Fin 32, A (ix2 p k) * B (ix2 k q) := by
  simp only [Host.dotGeneral]
  rw [Ideal.dotGeneral_apply]
  exact rdot32_sum A B p q

/-- A product with a [32, 32] weight matrix contracts over the 32 features of one row, so it commutes with taking block t of the rows. -/
theorem rows_dot32 {t : Fin 10} {Ab : FVec Ideal Cert.KernelIdeal.S10000x32 .f32} {A : FVec Ideal Cert.ReferenceIdeal.S100000x32 .f32}
    (B : FVec Ideal Cert.KernelIdeal.S32x32 .f32) (h : RowsOf t Ab A) :
    RowsOf t (matmul Cert.KernelIdeal.dot_S10000x32_S32x32_S10000x32_1_0_0_1_n_n none (truncf .bf16 Ab Cert.KernelIdeal.Gen.bitsLt_bf16_f32) (truncf .bf16 B Cert.KernelIdeal.Gen.bitsLt_bf16_f32)
        (constant Cert.KernelIdeal.S10000x32 .f32 0x00000000#32))
      (Host.dotGeneral Cert.ReferenceIdeal.dot_S100000x32_S32x32_S100000x32_1_0_0_1_n_n none A B) := fun p q =>
  (kdot32_apply Ab B p q).trans
    ((Finset.sum_congr rfl fun k _ => congrArg (· * B (ix2 k q)) (h p k)).trans (rdot32_apply A B _ q).symm)

/-! ### The block's product [10000, 32] · [32, 1] -/

theorem kdot1_l0 (i : Cert.KernelIdeal.S10000x1.Idx) (q : Cert.KernelIdeal.dot_S10000x32_S32x1_S10000x1_1_0_0_1_n_n.contr.Idx) :
    (Cert.KernelIdeal.dot_S10000x32_S32x1_S10000x1_1_0_0_1_n_n.lhsIdx i q 0).val = (i 0).val := by
  unfold DotDims.lhsIdx
  rw [dif_neg (show ¬(0 : Fin Cert.KernelIdeal.S10000x32.rank) ∈ Cert.KernelIdeal.dot_S10000x32_S32x1_S10000x1_1_0_0_1_n_n.lhsBatch by decide), dif_pos (show (0 : Fin Cert.KernelIdeal.S10000x32.rank) ∈ Cert.KernelIdeal.dot_S10000x32_S32x1_S10000x1_1_0_0_1_n_n.lhsNonContracting by decide)]
  rfl
theorem kdot1_l1 (i : Cert.KernelIdeal.S10000x1.Idx) (q : Cert.KernelIdeal.dot_S10000x32_S32x1_S10000x1_1_0_0_1_n_n.contr.Idx) :
    (Cert.KernelIdeal.dot_S10000x32_S32x1_S10000x1_1_0_0_1_n_n.lhsIdx i q 1).val = (q ⟨0, by decide⟩).val :=
  Cert.KernelIdeal.dot_S10000x32_S32x1_S10000x1_1_0_0_1_n_n.lhsIdx_val_of_single rfl i q
theorem kdot1_r0 (i : Cert.KernelIdeal.S10000x1.Idx) (q : Cert.KernelIdeal.dot_S10000x32_S32x1_S10000x1_1_0_0_1_n_n.contr.Idx) :
    (Cert.KernelIdeal.dot_S10000x32_S32x1_S10000x1_1_0_0_1_n_n.rhsIdx i q 0).val = (q ⟨0, by decide⟩).val :=
  Cert.KernelIdeal.dot_S10000x32_S32x1_S10000x1_1_0_0_1_n_n.rhsIdx_val_of_single rfl i q
theorem kdot1_r1 (i : Cert.KernelIdeal.S10000x1.Idx) (q : Cert.KernelIdeal.dot_S10000x32_S32x1_S10000x1_1_0_0_1_n_n.contr.Idx) :
    (Cert.KernelIdeal.dot_S10000x32_S32x1_S10000x1_1_0_0_1_n_n.rhsIdx i q 1).val = (i 1).val := by
  unfold DotDims.rhsIdx
  rw [dif_neg (show ¬(1 : Fin Cert.KernelIdeal.S32x1.rank) ∈ Cert.KernelIdeal.dot_S10000x32_S32x1_S10000x1_1_0_0_1_n_n.rhsBatch by decide), dif_pos (show (1 : Fin Cert.KernelIdeal.S32x1.rank) ∈ Cert.KernelIdeal.dot_S10000x32_S32x1_S10000x1_1_0_0_1_n_n.rhsNonContracting by decide)]
  rfl
/-- The sum over the one contracted axis, written over the feature k < 32: entry (p, q) is Σₖ A(p, k) · B(k, q). -/
theorem kdot1_sum (A : FVec Ideal Cert.KernelIdeal.S10000x32 .f32) (B : FVec Ideal Cert.KernelIdeal.S32x1 .f32) (p : Fin 10000) (q : Fin 1) :
    (∑ k : Cert.KernelIdeal.dot_S10000x32_S32x1_S10000x1_1_0_0_1_n_n.contr.Idx, A (Cert.KernelIdeal.dot_S10000x32_S32x1_S10000x1_1_0_0_1_n_n.lhsIdx (ix2 p q) k) * B (Cert.KernelIdeal.dot_S10000x32_S32x1_S10000x1_1_0_0_1_n_n.rhsIdx (ix2 p q) k))
      = ∑ k : Fin 32, A (ix2 p k) * B (ix2 k q) := by
  rw [← Equiv.sum_comp (contrEquiv1 Cert.KernelIdeal.dot_S10000x32_S32x1_S10000x1_1_0_0_1_n_n 32 rfl rfl).symm]
  refine Finset.sum_congr rfl fun k _ => ?_
  have hk := contrEquiv1_symm_val Cert.KernelIdeal.dot_S10000x32_S32x1_S10000x1_1_0_0_1_n_n 32 rfl rfl k
  have el : Cert.KernelIdeal.dot_S10000x32_S32x1_S10000x1_1_0_0_1_n_n.lhsIdx (ix2 p q) ((contrEquiv1 Cert.KernelIdeal.dot_S10000x32_S32x1_S10000x1_1_0_0_1_n_n 32 rfl rfl).symm k) = ix2 p k := funext fun a => Fin.ext (by
    match a with
    | ⟨0, _⟩ => exact kdot1_l0 _ _
    | ⟨1, _⟩ => exact (kdot1_l1 _ _).trans hk)
  have er : Cert.KernelIdeal.dot_S10000x32_S32x1_S10000x1_1_0_0_1_n_n.rhsIdx (ix2 p q) ((contrEquiv1 Cert.KernelIdeal.dot_S10000x32_S32x1_S10000x1_1_0_0_1_n_n 32 rfl rfl).symm k) = ix2 k q := funext fun a => Fin.ext (by
    match a with
    | ⟨0, _⟩ => exact (kdot1_r0 _ _).trans hk
    | ⟨1, _⟩ => exact kdot1_r1 _ _)
  rw [el, er]

/-! ### The whole array's product [100000, 32] · [32, 1] -/

theorem rdot1_l0 (i : Cert.ReferenceIdeal.S100000x1.Idx) (q : Cert.ReferenceIdeal.dot_S100000x32_S32x1_S100000x1_1_0_0_1_n_n.contr.Idx) :
    (Cert.ReferenceIdeal.dot_S100000x32_S32x1_S100000x1_1_0_0_1_n_n.lhsIdx i q 0).val = (i 0).val := by
  unfold DotDims.lhsIdx
  rw [dif_neg (show ¬(0 : Fin Cert.ReferenceIdeal.S100000x32.rank) ∈ Cert.ReferenceIdeal.dot_S100000x32_S32x1_S100000x1_1_0_0_1_n_n.lhsBatch by decide), dif_pos (show (0 : Fin Cert.ReferenceIdeal.S100000x32.rank) ∈ Cert.ReferenceIdeal.dot_S100000x32_S32x1_S100000x1_1_0_0_1_n_n.lhsNonContracting by decide)]
  rfl
theorem rdot1_l1 (i : Cert.ReferenceIdeal.S100000x1.Idx) (q : Cert.ReferenceIdeal.dot_S100000x32_S32x1_S100000x1_1_0_0_1_n_n.contr.Idx) :
    (Cert.ReferenceIdeal.dot_S100000x32_S32x1_S100000x1_1_0_0_1_n_n.lhsIdx i q 1).val = (q ⟨0, by decide⟩).val :=
  Cert.ReferenceIdeal.dot_S100000x32_S32x1_S100000x1_1_0_0_1_n_n.lhsIdx_val_of_single rfl i q
theorem rdot1_r0 (i : Cert.ReferenceIdeal.S100000x1.Idx) (q : Cert.ReferenceIdeal.dot_S100000x32_S32x1_S100000x1_1_0_0_1_n_n.contr.Idx) :
    (Cert.ReferenceIdeal.dot_S100000x32_S32x1_S100000x1_1_0_0_1_n_n.rhsIdx i q 0).val = (q ⟨0, by decide⟩).val :=
  Cert.ReferenceIdeal.dot_S100000x32_S32x1_S100000x1_1_0_0_1_n_n.rhsIdx_val_of_single rfl i q
theorem rdot1_r1 (i : Cert.ReferenceIdeal.S100000x1.Idx) (q : Cert.ReferenceIdeal.dot_S100000x32_S32x1_S100000x1_1_0_0_1_n_n.contr.Idx) :
    (Cert.ReferenceIdeal.dot_S100000x32_S32x1_S100000x1_1_0_0_1_n_n.rhsIdx i q 1).val = (i 1).val := by
  unfold DotDims.rhsIdx
  rw [dif_neg (show ¬(1 : Fin Cert.ReferenceIdeal.S32x1.rank) ∈ Cert.ReferenceIdeal.dot_S100000x32_S32x1_S100000x1_1_0_0_1_n_n.rhsBatch by decide), dif_pos (show (1 : Fin Cert.ReferenceIdeal.S32x1.rank) ∈ Cert.ReferenceIdeal.dot_S100000x32_S32x1_S100000x1_1_0_0_1_n_n.rhsNonContracting by decide)]
  rfl
/-- The sum over the one contracted axis, written over the feature k < 32: entry (p, q) is Σₖ A(p, k) · B(k, q). -/
theorem rdot1_sum (A : FVec Ideal Cert.ReferenceIdeal.S100000x32 .f32) (B : FVec Ideal Cert.ReferenceIdeal.S32x1 .f32) (p : Fin 100000) (q : Fin 1) :
    (∑ k : Cert.ReferenceIdeal.dot_S100000x32_S32x1_S100000x1_1_0_0_1_n_n.contr.Idx, A (Cert.ReferenceIdeal.dot_S100000x32_S32x1_S100000x1_1_0_0_1_n_n.lhsIdx (ix2 p q) k) * B (Cert.ReferenceIdeal.dot_S100000x32_S32x1_S100000x1_1_0_0_1_n_n.rhsIdx (ix2 p q) k))
      = ∑ k : Fin 32, A (ix2 p k) * B (ix2 k q) := by
  rw [← Equiv.sum_comp (contrEquiv1 Cert.ReferenceIdeal.dot_S100000x32_S32x1_S100000x1_1_0_0_1_n_n 32 rfl rfl).symm]
  refine Finset.sum_congr rfl fun k _ => ?_
  have hk := contrEquiv1_symm_val Cert.ReferenceIdeal.dot_S100000x32_S32x1_S100000x1_1_0_0_1_n_n 32 rfl rfl k
  have el : Cert.ReferenceIdeal.dot_S100000x32_S32x1_S100000x1_1_0_0_1_n_n.lhsIdx (ix2 p q) ((contrEquiv1 Cert.ReferenceIdeal.dot_S100000x32_S32x1_S100000x1_1_0_0_1_n_n 32 rfl rfl).symm k) = ix2 p k := funext fun a => Fin.ext (by
    match a with
    | ⟨0, _⟩ => exact rdot1_l0 _ _
    | ⟨1, _⟩ => exact (rdot1_l1 _ _).trans hk)
  have er : Cert.ReferenceIdeal.dot_S100000x32_S32x1_S100000x1_1_0_0_1_n_n.rhsIdx (ix2 p q) ((contrEquiv1 Cert.ReferenceIdeal.dot_S100000x32_S32x1_S100000x1_1_0_0_1_n_n 32 rfl rfl).symm k) = ix2 k q := funext fun a => Fin.ext (by
    match a with
    | ⟨0, _⟩ => exact (rdot1_r0 _ _).trans hk
    | ⟨1, _⟩ => exact rdot1_r1 _ _)
  rw [el, er]

/-- The block's product into a zero accumulator, the operands' formats narrowed (no change over the extended reals), is the plain sum over the feature. -/
theorem kdot1_apply (A : FVec Ideal Cert.KernelIdeal.S10000x32 .f32) (B : FVec Ideal Cert.KernelIdeal.S32x1 .f32) (p : Fin 10000) (q : Fin 1) :
    matmul Cert.KernelIdeal.dot_S10000x32_S32x1_S10000x1_1_0_0_1_n_n none (truncf .bf16 A Cert.KernelIdeal.Gen.bitsLt_bf16_f32) (truncf .bf16 B Cert.KernelIdeal.Gen.bitsLt_bf16_f32)
      (constant Cert.KernelIdeal.S10000x1 .f32 0x00000000#32) (ix2 p q) = ∑ k : Fin 32, A (ix2 p k) * B (ix2 k q) := by
  simp only [matmul]
  rw [Ideal.matmul_constant_zero_apply]
  exact kdot1_sum A B p q

/-- The whole array's product is the same sum. -/
theorem rdot1_apply (A : FVec Ideal Cert.ReferenceIdeal.S100000x32 .f32) (B : FVec Ideal Cert.ReferenceIdeal.S32x1 .f32) (p : Fin 100000) (q : Fin 1) :
    Host.dotGeneral Cert.ReferenceIdeal.dot_S100000x32_S32x1_S100000x1_1_0_0_1_n_n none A B (ix2 p q) = ∑ k : Fin 32, A (ix2 p k) * B (ix2 k q) := by
  simp only [Host.dotGeneral]
  rw [Ideal.dotGeneral_apply]
  exact rdot1_sum A B p q

/-- A product with a [32, 1] weight matrix contracts over the 32 features of one row, so it commutes with taking block t of the rows. -/
theorem rows_dot1 {t : Fin 10} {Ab : FVec Ideal Cert.KernelIdeal.S10000x32 .f32} {A : FVec Ideal Cert.ReferenceIdeal.S100000x32 .f32}
    (B : FVec Ideal Cert.KernelIdeal.S32x1 .f32) (h : RowsOf t Ab A) :
    RowsOf t (matmul Cert.KernelIdeal.dot_S10000x32_S32x1_S10000x1_1_0_0_1_n_n none (truncf .bf16 Ab Cert.KernelIdeal.Gen.bitsLt_bf16_f32) (truncf .bf16 B Cert.KernelIdeal.Gen.bitsLt_bf16_f32)
        (constant Cert.KernelIdeal.S10000x1 .f32 0x00000000#32))
      (Host.dotGeneral Cert.ReferenceIdeal.dot_S100000x32_S32x1_S100000x1_1_0_0_1_n_n none A B) := fun p q =>
  (kdot1_apply Ab B p q).trans
    ((Finset.sum_congr rfl fun k _ => congrArg (· * B (ix2 k q)) (h p k)).trans (rdot1_apply A B _ q).symm)

/-! ## The three kernels -/

/-- The embedding kernel on block t of the node features is block t of the embedding layers on all nodes. -/
theorem embed_rows (t : Fin 10) (xb : Vec Ideal Cert.KernelIdeal.S10000x6 .f32) (x : Vec Ideal Cert.KernelIdeal.S100000x6 .f32)
    (w1 : Vec Ideal Cert.KernelIdeal.S6x64 .f32) (b1 : Vec Ideal Cert.KernelIdeal.S64 .f32)
    (w2 : Vec Ideal Cert.KernelIdeal.S64x32 .f32) (b2 : Vec Ideal Cert.KernelIdeal.S32 .f32)
    (wg : Vec Ideal Cert.KernelIdeal.S32x32 .f32)
    (hx : ∀ (p : Fin 10000) (k : Fin 6), xb (ix2 p k) = x (rowIx t p k)) (p : Fin 10000) (q : Fin 32) :
    Cert.KernelIdeal.Gen.k0_pay1 (F := Ideal) xb w1 b1 w2 b2 wg (ix2 p q)
      = embedOf (F := Ideal) x w1 b1 w2 b2 wg (rowIx t p q) := by
  have h1 := rows_tanh (rows_addf (rows_dot6 w1 hx) (rows_bias64 b1))
  have h2 := rows_tanh (rows_addf (rows_dot64 w2 h1) (rows_bias32 b2))
  exact rows_dot32 wg h2 p q

/-- The middle kernel on block t of an aggregate is block t of max(a + b, 0) · W on all nodes. -/
theorem layer_rows (t : Fin 10) (ab : Vec Ideal Cert.KernelIdeal.S10000x32 .f32) (a : Vec Ideal Cert.KernelIdeal.S100000x32 .f32)
    (b : Vec Ideal Cert.KernelIdeal.S32 .f32) (w : Vec Ideal Cert.KernelIdeal.S32x32 .f32)
    (ha : ∀ (p : Fin 10000) (k : Fin 32), ab (ix2 p k) = a (rowIx t p k)) (p : Fin 10000) (q : Fin 32) :
    Cert.KernelIdeal.Gen.k1_pay1 (F := Ideal) ab b w (ix2 p q) = layerOf (F := Ideal) a b w (rowIx t p q) := by
  have h1 := rows_max (rows_addf (rows_cast ha) (rows_bias32 b)) (rows_zero32 t)
  exact rows_dot32 w h1 p q

/-- The read-out kernel on block t of an aggregate is block t of the read-out layers on all nodes. -/
theorem head_rows (t : Fin 10) (ab : Vec Ideal Cert.KernelIdeal.S10000x32 .f32) (a : Vec Ideal Cert.KernelIdeal.S100000x32 .f32)
    (b : Vec Ideal Cert.KernelIdeal.S32 .f32) (w1 : Vec Ideal Cert.KernelIdeal.S32x32 .f32)
    (b1 : Vec Ideal Cert.KernelIdeal.S32 .f32) (w2 : Vec Ideal Cert.KernelIdeal.S32x1 .f32)
    (b2 : Vec Ideal Cert.KernelIdeal.S1 .f32)
    (ha : ∀ (p : Fin 10000) (k : Fin 32), ab (ix2 p k) = a (rowIx t p k)) (p : Fin 10000) (q : Fin 1) :
    Cert.KernelIdeal.Gen.k2_pay1 (F := Ideal) ab b w1 b1 w2 b2 (ix2 p q) = headOf (F := Ideal) a b w1 b1 w2 b2 (rowIx t p q) := by
  have h1 := rows_max (rows_addf (rows_cast ha) (rows_bias32 b)) (rows_zero32 t)
  have h2 := rows_tanh (rows_addf (rows_dot32 w1 h1) (rows_bias32 b1))
  exact rows_tanh (rows_addf (rows_dot1 w2 h2) (rows_bias1 b2)) p q

end Cert.Gnn

end
-- ==== Proof.Region0.lean ====
/-
  The first pallas_call, over the extended reals, whatever the buffers hold when it is entered (`V`).
  Its grid has 10 points; point t reads rows t·10000 … t·10000 + 9999 of the node features and the five weight
  arrays whole, and writes back rows t·10000 … of its [100000, 32] result. The ten row blocks tile the result, and
  each is the matching row block of the embedding layers applied to all nodes, so after the last point the
  result array is `embedOf` of the arrays the call found.
-/
import proofs.«169415_j13134009991452_1_alg».proof.Proof.RowBlocks
import proofs.«169415_j13134009991452_1_alg».proof.Proof.Gen.KernelIdeal.Frame
import Idealize.ShloMosaic.Lib.Pipeline.Value
import Idealize.ShloMosaic.Lib.ValueIdx

set_option maxRecDepth 16384

noncomputable section

namespace Cert.KernelIdeal.GnnValue.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a rank-2 access, as the constant function. -/
theorem hz2 : (![0, 0] : Fin 2 → Nat) = fun _ => 0 := funext fun a => by fin_cases a <;> rfl
/-- The zero offset of a rank-1 access, as the constant function. -/
theorem hz1 : (![0] : Fin 1 → Nat) = fun _ => 0 := funext fun a => by fin_cases a <;> rfl

/-- The index maps over the ten points: the node features and the result move one row block per point, every
    weight array stays at block 0. -/
theorem idx_facts : ∀ t : Fin cfg0.N,
    win0_0.index t (0 : Fin 2) = t.val ∧ win0_0.index t (1 : Fin 2) = 0
    ∧ win0_6.index t (0 : Fin 2) = t.val ∧ win0_6.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0 :=
  (by decide +kernel : ∀ t : Fin grid0.N, _)

/-- A point's number is below 10. -/
theorem pt_lt (t : Fin cfg0.N) : t.val < 10 := by
  have h : t.val < grid0.N := t.isLt
  rw [N_0] at h; exact h

/-- The first weight matrix is read whole at every point. -/
theorem blk1 (c : Dev nD) (t : Fin cfg0.N) : iblk0 V c 1 t = V c main_arg2 := by
  obtain ⟨-, -, -, -, e0, e1, -⟩ := idx_facts t
  funext y
  show V c main_arg2 (((cfg0.win 1).blk t).view.emb y) = V c main_arg2 y
  congr 1
  funext a; apply Fin.ext
  match a with
  | ⟨0, _⟩ => show win0_1.index t (0 : Fin 2) * 6 + 1 * (y 0).val = (y 0).val; omega
  | ⟨1, _⟩ => show win0_1.index t (1 : Fin 2) * 64 + 1 * (y 1).val = (y 1).val; omega

/-- The first bias is read whole at every point. -/
theorem blk2 (c : Dev nD) (t : Fin cfg0.N) : iblk0 V c 2 t = V c main_arg3 := by
  obtain ⟨-, -, -, -, -, -, e0, -⟩ := idx_facts t
  funext y
  show V c main_arg3 (((cfg0.win 2).blk t).view.emb y) = V c main_arg3 y
  congr 1
  funext a; apply Fin.ext
  match a with
  | ⟨0, _⟩ => show win0_2.index t (0 : Fin 1) * 64 + 1 * (y 0).val = (y 0).val; omega

/-- The second weight matrix is read whole at every point. -/
theorem blk3 (c : Dev nD) (t : Fin cfg0.N) : iblk0 V c 3 t = V c main_arg4 := by
  obtain ⟨-, -, -, -, -, -, -, e0, e1, -⟩ := idx_facts t
  funext y
  show V c main_arg4 (((cfg0.win 3).blk t).view.emb y) = V c main_arg4 y
  congr 1
  funext a; apply Fin.ext
  match a with
  | ⟨0, _⟩ => show win0_3.index t (0 : Fin 2) * 64 + 1 * (y 0).val = (y 0).val; omega
  | ⟨1, _⟩ => show win0_3.index t (1 : Fin 2) * 32 + 1 * (y 1).val = (y 1).val; omega

/-- The second bias is read whole at every point. -/
theorem blk4 (c : Dev nD) (t : Fin cfg0.N) : iblk0 V c 4 t = V c main_arg5 := by
  obtain ⟨-, -, -, -, -, -, -, -, -, e0, -⟩ := idx_facts t
  funext y
  show V c main_arg5 (((cfg0.win 4).blk t).view.emb y) = V c main_arg5 y
  congr 1
  funext a; apply Fin.ext
  match a with
  | ⟨0, _⟩ => show win0_4.index t (0 : Fin 1) * 32 + 1 * (y 0).val = (y 0).val; omega

/-- The convolution's weight matrix is read whole at every point. -/
theorem blk5 (c : Dev nD) (t : Fin cfg0.N) : iblk0 V c 5 t = V c main_arg6 := by
  obtain ⟨-, -, -, -, -, -, -, -, -, -, e0, e1⟩ := idx_facts t
  funext y
  show V c main_arg6 (((cfg0.win 5).blk t).view.emb y) = V c main_arg6 y
  congr 1
  funext a; apply Fin.ext
  match a with
  | ⟨0, _⟩ => show win0_5.index t (0 : Fin 2) * 32 + 1 * (y 0).val = (y 0).val; omega
  | ⟨1, _⟩ => show win0_5.index t (1 : Fin 2) * 32 + 1 * (y 1).val = (y 1).val; omega

/-- Entry (p, k) of the node features' block at point t is entry (t·10000 + p, k) of the node features. -/
theorem blk0 (c : Dev nD) (t : Fin cfg0.N) (p : Fin 10000) (k : Fin 6) :
    iblk0 V c 0 t (ix2 p k) = V c main_arg0 (Cert.Gnn.rowIx ⟨t.val, pt_lt t⟩ p k) := by
  obtain ⟨e0, e1, -⟩ := idx_facts t
  show V c main_arg0 (((cfg0.win 0).blk t).view.emb (ix2 p k)) = V c main_arg0 (Cert.Gnn.rowIx ⟨t.val, pt_lt t⟩ p k)
  congr 1
  funext a; apply Fin.ext
  match a with
  | ⟨0, _⟩ => show win0_0.index t (0 : Fin 2) * 10000 + 1 * p.val = t.val * 10000 + p.val; omega
  | ⟨1, _⟩ => show win0_0.index t (1 : Fin 2) * 6 + 1 * k.val = k.val; omega

/-- Entry (p, q) of the result's block at point t sits at entry (t·10000 + p, q) of the result. -/
theorem emb6 (t : Fin cfg0.N) (p : Fin 10000) (q : Fin 32) :
    ((cfg0.win 6).blk t).view.emb (ix2 p q) = Cert.Gnn.rowIx ⟨t.val, pt_lt t⟩ p q := by
  obtain ⟨-, -, e0, e1, -⟩ := idx_facts t
  funext a; apply Fin.ext
  match a with
  | ⟨0, _⟩ => show win0_6.index t (0 : Fin 2) * 10000 + 1 * p.val = t.val * 10000 + p.val; omega
  | ⟨1, _⟩ => show win0_6.index t (1 : Fin 2) * 32 + 1 * q.val = q.val; omega

/-- What point t writes back is its row block of the embedding layers applied to all nodes. -/
theorem flushed_eq (c : Dev nD) (t : Fin cfg0.N) :
    (dat0 (F := Ideal) V c).flushed 6 t = ((cfg0.win 6).blk t).view.read (Elt Ideal)
      (Cert.Gnn.embedOf (F := Ideal) (V c main_arg0) (V c main_arg2) (V c main_arg3) (V c main_arg4) (V c main_arg5) (V c main_arg6)) := by
  show (cfg0.win 6).cut (grid0.coords t) ((dat0 (F := Ideal) V c).after 6 t) = _
  rw [after0_6]
  unfold out0_6
  rw [View.canon_unit_zero hz2]
  simp only [View.ld_unit_zero (S := S10000x6) hz2, View.ld_unit_zero (S := S6x64) hz2, View.ld_unit_zero (S := S64) hz1,
    View.ld_unit_zero (S := S64x32) hz2, View.ld_unit_zero (S := S32) hz1, View.ld_unit_zero (S := S32x32) hz2]
  rw [blk1, blk2, blk3, blk4, blk5]
  funext j
  obtain ⟨p, q, rfl⟩ : ∃ (p : Fin 10000) (q : Fin 32), j = ix2 p q := ⟨j 0, j 1, eq_ix2 j⟩
  show k0_pay1 (F := Ideal) (iblk0 V c 0 t) (V c main_arg2) (V c main_arg3) (V c main_arg4) (V c main_arg5) (V c main_arg6) (ix2 p q)
    = Cert.Gnn.embedOf (F := Ideal) (V c main_arg0) (V c main_arg2) (V c main_arg3) (V c main_arg4) (V c main_arg5) (V c main_arg6)
        (((cfg0.win 6).blk t).view.emb (ix2 p q))
  rw [emb6]
  exact Cert.Gnn.embed_rows ⟨t.val, pt_lt t⟩ (iblk0 V c 0 t) (V c main_arg0) (V c main_arg2) (V c main_arg3) (V c main_arg4)
    (V c main_arg5) (V c main_arg6) (fun p k => blk0 V c t p k) p q

/-- An entry of the result lies in point t's block iff each of its coordinates lies in the block's range. -/
theorem mem_blk (t : Fin cfg0.N) (i : S100000x32.Idx) :
    i ∈ ((cfg0.win 6).blk t).view.set ↔ ∀ a : Fin 2, win0_6.index t a * S10000x32.size a ≤ (i a).val
      ∧ (i a).val < win0_6.index t a * S10000x32.size a + S10000x32.size a := by
  show i ∈ ((View.whole main_v30).slice (win0_6.rect t)).set ↔ _
  rw [View.set_slice_whole, Rect.mem_set_unit]
  exact Iff.rfl

/-- The ten row blocks tile the result: row r lies in the block of point r / 10000, which writes back. -/
theorem cover (i : S100000x32.Idx) :
    ∃ t : Fin cfg0.N, (cfg0.win 6).flush t = true ∧ i ∈ ((cfg0.win 6).blk t).view.set := by
  have hi0 : (i 0).val < 100000 := (i 0).isLt
  have hi1 : (i 1).val < 32 := (i 1).isLt
  have ht : (i 0).val / 10000 < cfg0.N := by
    show (i 0).val / 10000 < grid0.N
    rw [N_0]; omega
  refine ⟨⟨(i 0).val / 10000, ht⟩, flush0_6 _, ?_⟩
  rw [mem_blk]
  obtain ⟨-, -, e0, e1, -⟩ := idx_facts ⟨(i 0).val / 10000, ht⟩
  have e0' : win0_6.index ⟨(i 0).val / 10000, ht⟩ (0 : Fin 2) = (i 0).val / 10000 := e0
  intro a
  match a with
  | ⟨0, _⟩ =>
    show win0_6.index ⟨(i 0).val / 10000, ht⟩ (0 : Fin 2) * 10000 ≤ (i 0).val
      ∧ (i 0).val < win0_6.index ⟨(i 0).val / 10000, ht⟩ (0 : Fin 2) * 10000 + 10000
    omega
  | ⟨1, _⟩ =>
    show win0_6.index ⟨(i 0).val / 10000, ht⟩ (1 : Fin 2) * 32 ≤ (i 1).val
      ∧ (i 1).val < win0_6.index ⟨(i 0).val / 10000, ht⟩ (1 : Fin 2) * 32 + 32
    omega

/-- After the call's last grid point its result array is the embedding layers of the arrays it found. -/
theorem final0 (c : Dev nD) :
    (dat0 (F := Ideal) V c).arrAt 6 cfg0.N
      = Cert.Gnn.embedOf (F := Ideal) (V c main_arg0) (V c main_arg2) (V c main_arg3) (V c main_arg4) (V c main_arg5) (V c main_arg6) :=
  (dat0 (F := Ideal) V c).arrAt_eq_of_cover 6
    (Cert.Gnn.embedOf (F := Ideal) (V c main_arg0) (V c main_arg2) (V c main_arg3) (V c main_arg4) (V c main_arg5) (V c main_arg6))
    (fun t _ => flushed_eq V c t) cover

end Cert.KernelIdeal.GnnValue.Region0

end
-- ==== Proof.Region1.lean ====
/-
  The second pallas_call, over the extended reals, whatever the buffers hold when it is entered (`V`).
  Point t of its 10 reads rows t·10000 … t·10000 + 9999 of the first aggregate, the bias and the weight matrix
  whole, and writes back the same rows of its [100000, 32] result: max(a + b, 0) · W row block by row block, so
  after the last point the result array is `layerOf` of the arrays the call found.
-/
import proofs.«169415_j13134009991452_1_alg».proof.Proof.RowBlocks
import proofs.«169415_j13134009991452_1_alg».proof.Proof.Gen.KernelIdeal.Frame
import Idealize.ShloMosaic.Lib.Pipeline.Value
import Idealize.ShloMosaic.Lib.ValueIdx

set_option maxRecDepth 16384

noncomputable section

namespace Cert.KernelIdeal.GnnValue.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offset of a rank-2 load or store, as a constant function. -/
theorem zero_off2 : (![0, 0] : Fin 2 → Nat) = fun _ => 0 := funext fun a => by fin_cases a <;> rfl

/-- The zero offset of a rank-1 load, as a constant function. -/
theorem zero_off1 : (![0] : Fin 1 → Nat) = fun _ => 0 := funext fun a => by fin_cases a <;> rfl

/-- The index maps, decided once over the 10 points: the aggregate's and the result's block t is row block t
    (column block 0); the bias and the weight matrix are one block each, block 0. -/
theorem idx_facts : ∀ t : Fin cfg1.N,
    win1_0.index t (0 : Fin 2) = t.val ∧ win1_0.index t (1 : Fin 2) = 0
    ∧ win1_3.index t (0 : Fin 2) = t.val ∧ win1_3.index t (1 : Fin 2) = 0
    ∧ win1_1.index t (0 : Fin 1) = 0
    ∧ win1_2.index t (0 : Fin 2) = 0 ∧ win1_2.index t (1 : Fin 2) = 0 :=
  (by decide +kernel : ∀ t : Fin grid1.N, _)

/-- A grid point as a number below 10. -/
def pt (t : Fin cfg1.N) : Fin 10 := ⟨t.val, by have h : t.val < grid1.N := t.isLt; rw [N_1] at h; exact h⟩

/-- The bias window's block at any point is the whole bias. -/
theorem bias_block (c : Dev nD) (t : Fin cfg1.N) : iblk1 V c 1 t = V c main_arg7 := by
  funext y
  show V c main_arg7 (((cfg1.win 1).blk t).view.emb y) = V c main_arg7 y
  congr 1
  funext a; apply Fin.ext
  obtain ⟨-, -, -, -, e, -, -⟩ := idx_facts t
  match a with
  | ⟨0, _⟩ => show win1_1.index t (0 : Fin 1) * 32 + 1 * (y 0).val = (y 0).val; omega

/-- The weight window's block at any point is the whole weight matrix. -/
theorem weight_block (c : Dev nD) (t : Fin cfg1.N) : iblk1 V c 2 t = V c main_arg8 := by
  funext y
  show V c main_arg8 (((cfg1.win 2).blk t).view.emb y) = V c main_arg8 y
  congr 1
  funext a; apply Fin.ext
  obtain ⟨-, -, -, -, -, e0, e1⟩ := idx_facts t
  match a with
  | ⟨0, _⟩ => show win1_2.index t (0 : Fin 2) * 32 + 1 * (y 0).val = (y 0).val; omega
  | ⟨1, _⟩ => show win1_2.index t (1 : Fin 2) * 32 + 1 * (y 1).val = (y 1).val; omega

/-- Entry (p, k) of the aggregate's block at point t is entry (t·10000 + p, k) of the aggregate. -/
theorem agg_block (c : Dev nD) (t : Fin cfg1.N) (p : Fin 10000) (k : Fin 32) :
    iblk1 V c 0 t (ix2 p k) = V c main_v43 (Cert.Gnn.rowIx (pt t) p k) := by
  show V c main_v43 (((cfg1.win 0).blk t).view.emb (ix2 p k)) = V c main_v43 (Cert.Gnn.rowIx (pt t) p k)
  congr 1
  funext a; apply Fin.ext
  obtain ⟨e0, e1, -, -, -, -, -⟩ := idx_facts t
  match a with
  | ⟨0, _⟩ => show win1_0.index t (0 : Fin 2) * 10000 + 1 * p.val = t.val * 10000 + p.val; omega
  | ⟨1, _⟩ => show win1_0.index t (1 : Fin 2) * 32 + 1 * k.val = k.val; omega

/-- Entry (p, q) of the result's block at point t sits at entry (t·10000 + p, q) of the result. -/
theorem out_block_emb (t : Fin cfg1.N) (p : Fin 10000) (q : Fin 32) :
    ((cfg1.win 3).blk t).view.emb (ix2 p q) = Cert.Gnn.rowIx (pt t) p q := by
  funext a; apply Fin.ext
  obtain ⟨-, -, e0, e1, -, -, -⟩ := idx_facts t
  match a with
  | ⟨0, _⟩ => show win1_3.index t (0 : Fin 2) * 10000 + 1 * p.val = t.val * 10000 + p.val; omega
  | ⟨1, _⟩ => show win1_3.index t (1 : Fin 2) * 32 + 1 * q.val = q.val; omega

/-- What point t writes back is block t of max(a + b, 0) · W of the arrays the call found. -/
theorem flushed_eq (c : Dev nD) (t : Fin cfg1.N) :
    (dat1 V c).flushed 3 t = ((cfg1.win 3).blk t).view.read (Elt Ideal)
      (Cert.Gnn.layerOf (F := Ideal) (V c main_v43) (V c main_arg7) (V c main_arg8)) := by
  show (cfg1.win 3).cut (grid1.coords t) ((dat1 V c).after 3 t) = _
  rw [after1_3]
  unfold out1_3
  rw [View.canon_unit_zero zero_off2]
  simp only [View.ld_unit_zero (S := S10000x32) zero_off2, View.ld_unit_zero (S := S32) zero_off1,
    View.ld_unit_zero (S := S32x32) zero_off2]
  rw [bias_block, weight_block]
  funext j
  obtain ⟨p, q, rfl⟩ : ∃ (p : Fin 10000) (q : Fin 32), j = ix2 p q := ⟨j 0, j 1, eq_ix2 j⟩
  show k1_pay1 (F := Ideal) (iblk1 V c 0 t) (V c main_arg7) (V c main_arg8) (ix2 p q)
    = Cert.Gnn.layerOf (F := Ideal) (V c main_v43) (V c main_arg7) (V c main_arg8)
        (((cfg1.win 3).blk t).view.emb (ix2 p q))
  rw [out_block_emb]
  exact Cert.Gnn.layer_rows (pt t) _ _ _ _ (agg_block V c t) p q

/-- An entry of the result lies in point t's block iff each coordinate lies in the block's range on its axis. -/
theorem mem_block (t : Fin cfg1.N) (i : S100000x32.Idx) :
    i ∈ ((cfg1.win 3).blk t).view.set ↔ ∀ a : Fin 2, win1_3.index t a * S10000x32.size a ≤ (i a).val
      ∧ (i a).val < win1_3.index t a * S10000x32.size a + S10000x32.size a := by
  show i ∈ ((View.whole main_v44).slice (win1_3.rect t)).set ↔ _
  rw [View.set_slice_whole, Rect.mem_set_unit]
  exact Iff.rfl

/-- Every entry of the result is written: row r belongs to the block of point r / 10000. -/
theorem covered (i : S100000x32.Idx) :
    ∃ t : Fin cfg1.N, (cfg1.win 3).flush t = true ∧ i ∈ ((cfg1.win 3).blk t).view.set := by
  have hi0 : (i 0).val < 100000 := (i 0).isLt
  have hi1 : (i 1).val < 32 := (i 1).isLt
  have hN : (i 0).val / 10000 < grid1.N := by rw [N_1]; omega
  refine ⟨⟨(i 0).val / 10000, hN⟩, flush1_3 _, ?_⟩
  rw [mem_block]
  obtain ⟨-, -, e0, e1, -, -, -⟩ := idx_facts ⟨(i 0).val / 10000, hN⟩
  intro a
  match a with
  | ⟨0, _⟩ =>
    show win1_3.index ⟨(i 0).val / 10000, hN⟩ (0 : Fin 2) * 10000 ≤ (i 0).val
      ∧ (i 0).val < win1_3.index ⟨(i 0).val / 10000, hN⟩ (0 : Fin 2) * 10000 + 10000
    rw [e0]; show (i 0).val / 10000 * 10000 ≤ (i 0).val ∧ (i 0).val < (i 0).val / 10000 * 10000 + 10000
    omega
  | ⟨1, _⟩ =>
    show win1_3.index ⟨(i 0).val / 10000, hN⟩ (1 : Fin 2) * 32 ≤ (i 1).val
      ∧ (i 1).val < win1_3.index ⟨(i 0).val / 10000, hN⟩ (1 : Fin 2) * 32 + 32
    rw [e1]; omega

/-- After the call's last grid point its result array is max(a + b, 0) · W of the arrays it found. -/
theorem final1 (c : Dev nD) :
    (dat1 (F := Ideal) V c).arrAt 3 cfg1.N
      = Cert.Gnn.layerOf (F := Ideal) (V c main_v43) (V c main_arg7) (V c main_arg8) :=
  (dat1 V c).arrAt_eq_of_cover 3 (Cert.Gnn.layerOf (F := Ideal) (V c main_v43) (V c main_arg7) (V c main_arg8))
    (fun t _ => flushed_eq V c t) covered

end Cert.KernelIdeal.GnnValue.Region1

end
-- ==== Proof.Region2.lean ====
/-
  The third pallas_call, over the extended reals, whatever the buffers hold when it is entered (`V`).
  Point t of its 10 reads rows t·10000 … t·10000 + 9999 of the second aggregate and the five read-out weights
  whole, and writes back the same rows of its [100000, 1] result, so after the last point the result array is
  `headOf` of the arrays the call found.
-/
import proofs.«169415_j13134009991452_1_alg».proof.Proof.RowBlocks
import proofs.«169415_j13134009991452_1_alg».proof.Proof.Gen.KernelIdeal.Frame
import Idealize.ShloMosaic.Lib.Pipeline.Value
import Idealize.ShloMosaic.Lib.ValueIdx

set_option maxRecDepth 16384

noncomputable section

namespace Cert.KernelIdeal.GnnValue.Region2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## Zero offsets, the index maps, the grid's size -/

/-- The rank-2 offset (0, 0) is the constant 0. -/
theorem hz2 : (![0, 0] : Fin 2 → Nat) = fun _ => 0 := funext fun a => by fin_cases a <;> rfl

/-- The rank-1 offset (0) is the constant 0. -/
theorem hz1 : (![0] : Fin 1 → Nat) = fun _ => 0 := funext fun a => by fin_cases a <;> rfl

/-- The index maps over the ten points: the aggregate's window and the result's window are at block (t, 0) at
    point t, and each weight's window is at block 0 on every axis. -/
theorem idx_facts : ∀ t : Fin cfg2.N,
    win2_0.index t (0 : Fin 2) = t.val ∧ win2_0.index t (1 : Fin 2) = 0
    ∧ win2_1.index t (0 : Fin 1) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 1) = 0
    ∧ win2_6.index t (0 : Fin 2) = t.val ∧ win2_6.index t (1 : Fin 2) = 0 :=
  (by decide +kernel : ∀ t : Fin grid2.N, _)

/-- The grid has ten points. -/
theorem points_eq : cfg2.N = 10 := N_2

/-- A grid point as the number of its row block. -/
abbrev blockNo (t : Fin cfg2.N) : Fin 10 := ⟨t.val, Nat.lt_of_lt_of_eq t.isLt points_eq⟩

/-! ## What each window's block holds

An entry of a block sits in its array, on each axis, at (block index) × (block size) + (its coordinate in the block). -/

/-- Entry (p, k) of the aggregate's block at point t is entry (t·10000 + p, k) of the aggregate. -/
theorem blk0 (c : Dev nD) (t : Fin cfg2.N) (p : Fin 10000) (k : Fin 32) :
    iblk2 (F := Ideal) V c 0 t (ix2 p k) = V c main_v57 (Cert.Gnn.rowIx (blockNo t) p k) := by
  obtain ⟨e00, e01, e1, e20, e21, e3, e40, e41, e5, e60, e61⟩ := idx_facts t
  show V c main_v57 (((cfg2.win 0).blk t).view.emb (ix2 p k)) = V c main_v57 (Cert.Gnn.rowIx (blockNo t) p k)
  refine congrArg _ ?_
  funext a; apply Fin.ext
  match a with
  | ⟨0, _⟩ => show win2_0.index t (0 : Fin 2) * 10000 + 1 * p.val = t.val * 10000 + p.val; rw [e00]; omega
  | ⟨1, _⟩ => show win2_0.index t (1 : Fin 2) * 32 + 1 * k.val = k.val; omega

/-- The first bias's block is the whole bias, at every point. -/
theorem blk1 (c : Dev nD) (t : Fin cfg2.N) : iblk2 (F := Ideal) V c 1 t = V c main_arg9 := by
  obtain ⟨e00, e01, e1, e20, e21, e3, e40, e41, e5, e60, e61⟩ := idx_facts t
  funext y
  show V c main_arg9 (((cfg2.win 1).blk t).view.emb y) = V c main_arg9 y
  refine congrArg _ ?_
  funext a; apply Fin.ext
  match a with
  | ⟨0, _⟩ => show win2_1.index t (0 : Fin 1) * 32 + 1 * (y 0).val = (y 0).val; omega

/-- The first read-out matrix's block is the whole matrix. -/
theorem blk2 (c : Dev nD) (t : Fin cfg2.N) : iblk2 (F := Ideal) V c 2 t = V c main_arg10 := by
  obtain ⟨e00, e01, e1, e20, e21, e3, e40, e41, e5, e60, e61⟩ := idx_facts t
  funext y
  show V c main_arg10 (((cfg2.win 2).blk t).view.emb y) = V c main_arg10 y
  refine congrArg _ ?_
  funext a; apply Fin.ext
  match a with
  | ⟨0, _⟩ => show win2_2.index t (0 : Fin 2) * 32 + 1 * (y 0).val = (y 0).val; omega
  | ⟨1, _⟩ => show win2_2.index t (1 : Fin 2) * 32 + 1 * (y 1).val = (y 1).val; omega

/-- The second bias's block is the whole bias. -/
theorem blk3 (c : Dev nD) (t : Fin cfg2.N) : iblk2 (F := Ideal) V c 3 t = V c main_arg11 := by
  obtain ⟨e00, e01, e1, e20, e21, e3, e40, e41, e5, e60, e61⟩ := idx_facts t
  funext y
  show V c main_arg11 (((cfg2.win 3).blk t).view.emb y) = V c main_arg11 y
  refine congrArg _ ?_
  funext a; apply Fin.ext
  match a with
  | ⟨0, _⟩ => show win2_3.index t (0 : Fin 1) * 32 + 1 * (y 0).val = (y 0).val; omega

/-- The second read-out matrix's block is the whole matrix. -/
theorem blk4 (c : Dev nD) (t : Fin cfg2.N) : iblk2 (F := Ideal) V c 4 t = V c main_arg12 := by
  obtain ⟨e00, e01, e1, e20, e21, e3, e40, e41, e5, e60, e61⟩ := idx_facts t
  funext y
  show V c main_arg12 (((cfg2.win 4).blk t).view.emb y) = V c main_arg12 y
  refine congrArg _ ?_
  funext a; apply Fin.ext
  match a with
  | ⟨0, _⟩ => show win2_4.index t (0 : Fin 2) * 32 + 1 * (y 0).val = (y 0).val; omega
  | ⟨1, _⟩ => show win2_4.index t (1 : Fin 2) * 1 + 1 * (y 1).val = (y 1).val; omega

/-- The last bias's block is the whole bias. -/
theorem blk5 (c : Dev nD) (t : Fin cfg2.N) : iblk2 (F := Ideal) V c 5 t = V c main_arg13 := by
  obtain ⟨e00, e01, e1, e20, e21, e3, e40, e41, e5, e60, e61⟩ := idx_facts t
  funext y
  show V c main_arg13 (((cfg2.win 5).blk t).view.emb y) = V c main_arg13 y
  refine congrArg _ ?_
  funext a; apply Fin.ext
  match a with
  | ⟨0, _⟩ => show win2_5.index t (0 : Fin 1) * 1 + 1 * (y 0).val = (y 0).val; omega

/-- Entry (p, q) of the result's block at point t sits at entry (t·10000 + p, q) of the result. -/
theorem out_emb (t : Fin cfg2.N) (p : Fin 10000) (q : Fin 1) :
    ((cfg2.win 6).blk t).view.emb (ix2 p q) = Cert.Gnn.rowIx (blockNo t) p q := by
  obtain ⟨e00, e01, e1, e20, e21, e3, e40, e41, e5, e60, e61⟩ := idx_facts t
  funext a; apply Fin.ext
  match a with
  | ⟨0, _⟩ => show win2_6.index t (0 : Fin 2) * 10000 + 1 * p.val = t.val * 10000 + p.val; rw [e60]; omega
  | ⟨1, _⟩ => show win2_6.index t (1 : Fin 2) * 1 + 1 * q.val = q.val; omega

/-! ## What one point writes back -/

/-- The body on a block whose rows are rows t·10000 … t·10000 + 9999 of the aggregate, beside blocks equal to the
    whole weights, gives those rows of the read-out layers: the row-block statement, the weights named through
    equations so that it can be applied to blocks of any spelling. -/
theorem point_rows (t : Fin 10) (x0 : Vec Ideal S10000x32 .f32) (x1 : Vec Ideal S32 .f32) (x2 : Vec Ideal S32x32 .f32)
    (x3 : Vec Ideal S32 .f32) (x4 : Vec Ideal S32x1 .f32) (x5 : Vec Ideal S1 .f32)
    (a : Vec Ideal S100000x32 .f32) (b : Vec Ideal S32 .f32) (w1 : Vec Ideal S32x32 .f32)
    (b1 : Vec Ideal S32 .f32) (w2 : Vec Ideal S32x1 .f32) (b2 : Vec Ideal S1 .f32)
    (h0 : ∀ (p : Fin 10000) (k : Fin 32), x0 (ix2 p k) = a (Cert.Gnn.rowIx t p k))
    (h1 : x1 = b) (h2 : x2 = w1) (h3 : x3 = b1) (h4 : x4 = w2) (h5 : x5 = b2) (p : Fin 10000) (q : Fin 1) :
    k2_pay1 (F := Ideal) x0 x1 x2 x3 x4 x5 (ix2 p q) = Cert.Gnn.headOf (F := Ideal) a b w1 b1 w2 b2 (Cert.Gnn.rowIx t p q) := by
  subst h1 h2 h3 h4 h5
  exact Cert.Gnn.head_rows t x0 a x1 x2 x3 x4 x5 h0 p q

/-- Point t writes back block t of the read-out layers of the arrays the call found: its one store fills the
    staging buffer with the body's value on the point's blocks, and that value at (p, q) is the read-out layers'
    value at row t·10000 + p. -/
theorem flushed_eq (c : Dev nD) (t : Fin cfg2.N) :
    (dat2 (F := Ideal) V c).flushed 6 t = ((cfg2.win 6).blk t).view.read (Elt Ideal)
      (Cert.Gnn.headOf (F := Ideal) (V c main_v57) (V c main_arg9) (V c main_arg10) (V c main_arg11) (V c main_arg12) (V c main_arg13)) := by
  show (cfg2.win 6).cut (grid2.coords t) ((dat2 (F := Ideal) V c).after 6 t) = _
  rw [after2_6]
  unfold out2_6
  rw [View.canon_unit_zero hz2]
  simp only [View.ld_unit_zero (S := S10000x32) hz2, View.ld_unit_zero (S := S32x32) hz2, View.ld_unit_zero (S := S32x1) hz2,
    View.ld_unit_zero (S := S32) hz1, View.ld_unit_zero (S := S1) hz1]
  funext j
  obtain ⟨p, q, rfl⟩ : ∃ (p : Fin 10000) (q : Fin 1), j = ix2 p q := ⟨j 0, j 1, eq_ix2 j⟩
  show k2_pay1 (F := Ideal) (iblk2 V c 0 t) (iblk2 V c 1 t) (iblk2 V c 2 t) (iblk2 V c 3 t) (iblk2 V c 4 t) (iblk2 V c 5 t) (ix2 p q)
    = Cert.Gnn.headOf (F := Ideal) (V c main_v57) (V c main_arg9) (V c main_arg10) (V c main_arg11) (V c main_arg12) (V c main_arg13)
        (((cfg2.win 6).blk t).view.emb (ix2 p q))
  rw [out_emb]
  exact point_rows (blockNo t) _ _ _ _ _ _ _ _ _ _ _ _ (blk0 V c t) (blk1 V c t) (blk2 V c t) (blk3 V c t) (blk4 V c t) (blk5 V c t) p q

/-! ## The ten blocks fill the result -/

/-- An index of the result is in point t's block iff each coordinate is in the block's range on its axis. -/
theorem mem_blk (t : Fin cfg2.N) (i : S100000x1.Idx) :
    i ∈ ((cfg2.win 6).blk t).view.set ↔ ∀ a : Fin 2, win2_6.index t a * S10000x1.size a ≤ (i a).val ∧ (i a).val < win2_6.index t a * S10000x1.size a + S10000x1.size a := by
  show i ∈ ((View.whole main_v58).slice (win2_6.rect t)).set ↔ _
  rw [View.set_slice_whole, Rect.mem_set_unit]
  exact Iff.rfl

/-- Row r of the result lies in the block of point r / 10000, and every point writes its block back. -/
theorem cover (i : S100000x1.Idx) : ∃ t : Fin cfg2.N, (cfg2.win 6).flush t = true ∧ i ∈ ((cfg2.win 6).blk t).view.set := by
  have hi0 : (i 0).val < 100000 := (i 0).isLt
  have hi1 : (i 1).val < 1 := (i 1).isLt
  let t : Fin cfg2.N := ⟨(i 0).val / 10000, by rw [points_eq]; omega⟩
  obtain ⟨e00, e01, e1, e20, e21, e3, e40, e41, e5, e60, e61⟩ := idx_facts t
  have ht : t.val = (i 0).val / 10000 := rfl
  refine ⟨t, flush2_6 t, ?_⟩
  rw [mem_blk]
  intro a
  match a with
  | ⟨0, _⟩ => show win2_6.index t (0 : Fin 2) * 10000 ≤ (i 0).val ∧ (i 0).val < win2_6.index t (0 : Fin 2) * 10000 + 10000; rw [e60, ht]; omega
  | ⟨1, _⟩ => show win2_6.index t (1 : Fin 2) * 1 ≤ (i 1).val ∧ (i 1).val < win2_6.index t (1 : Fin 2) * 1 + 1; rw [e61]; omega

/-- After the call's last grid point its result array is the read-out layers of the arrays it found. -/
theorem final2 (c : Dev nD) :
    (dat2 (F := Ideal) V c).arrAt 6 cfg2.N
      = Cert.Gnn.headOf (F := Ideal) (V c main_v57) (V c main_arg9) (V c main_arg10) (V c main_arg11) (V c main_arg12) (V c main_arg13) := by
  exact (dat2 (F := Ideal) V c).arrAt_eq_of_cover 6
    (Cert.Gnn.headOf (F := Ideal) (V c main_v57) (V c main_arg9) (V c main_arg10) (V c main_arg11) (V c main_arg12) (V c main_arg13))
    (fun t _ => flushed_eq V c t) cover

end Cert.KernelIdeal.GnnValue.Region2

end
-- ==== Proof.KernelValue.lean ====
/-
  The kernel program's result as a function of its arguments, over the extended reals.
  Between the three pallas_calls the program runs host operations: before the first, the graph's endpoint
  lists with self loops and the per-edge weights; after the first and after the second, the weighted sum over
  incoming edges of the call's result. The memory at each boundary is a fold of those operations and of the
  calls' write-backs over the launch memory; read at the buffers that matter it is, step by step, the network
  of `Spec.lean`: no later operation writes the endpoint lists, the weights or an argument, each call's result
  is its layer of the arrays it found (`final0` … `final2`), and each host stretch is `aggOf`.
-/
import proofs.«169415_j13134009991452_1_alg».proof.Proof.Region0
import proofs.«169415_j13134009991452_1_alg».proof.Proof.Region1
import proofs.«169415_j13134009991452_1_alg».proof.Proof.Region2
import Idealize.ShloMosaic.Lib.StableHlo.Run

set_option maxRecDepth 16384

noncomputable section

namespace Cert.KernelIdeal.GnnValue

open Cert.KernelIdeal Cert.KernelIdeal.Gen Idealize.ShloMosaic Idealize.ShloMosaic.TcCoe Idealize.SL.Sem
open Cert.KernelIdeal.GnnValue.Region0 (final0)
open Cert.KernelIdeal.GnnValue.Region1 (final1)
open Cert.KernelIdeal.GnnValue.Region2 (final2)

variable (m : (ℓ : Loc nD τ sig) → Buf (Elt Ideal) ℓ) (ρ : Dev nD → PrngReg)

/-! ## What a host stretch leaves alone

Each operation of a stretch writes its own result buffer only, so a reference that is not among a stretch's
result references holds after the stretch what it held before. -/

/-- The first stretch (the endpoint lists, the degree, its comparison and its inverse square root). -/
theorem keep_hostOps0 (W : Valuation τ sig (Elt Ideal)) {r : Ref sig .tc}
    (hr : r ∉ [main_v0, main_v1, main_v2, main_v3, main_v4, main_v5, main_v6, main_cst, main_v7, main_cst_0, main_v8,
      main_v9, main_v10, main_cst_1, main_v11, main_v12, main_v13, main_cst_2]) :
    StableHlo.after hostOps0 W (Proc.devRef .tc r) = W (Proc.devRef .tc r) :=
  StableHlo.after_of_writes_sub hostOps0 W (by
    simp only [hostOps0, List.Forall, StableHlo.nullary_writes, StableHlo.unary_writes, StableHlo.binary_writes,
      StableHlo.ternary_writes, StableHlo.reshape_writes]
    repeat' apply And.intro
    all_goals exact Finset.singleton_subset_iff.mpr (List.mem_toFinset.mpr (List.mem_map.mpr ⟨_, by decide, rfl⟩))) hr

/-- The second stretch (the selection between the inverse square root and 0). -/
theorem keep_hostOps0_1 (W : Valuation τ sig (Elt Ideal)) {r : Ref sig .tc}
    (hr : r ∉ [main_call0_v0, main_call0_v1, main_v14]) :
    StableHlo.after hostOps0_1 W (Proc.devRef .tc r) = W (Proc.devRef .tc r) :=
  StableHlo.after_of_writes_sub hostOps0_1 W (by
    simp only [hostOps0_1, List.Forall, StableHlo.nullary_writes, StableHlo.unary_writes, StableHlo.binary_writes,
      StableHlo.ternary_writes, StableHlo.reshape_writes]
    repeat' apply And.intro
    all_goals exact Finset.singleton_subset_iff.mpr (List.mem_toFinset.mpr (List.mem_map.mpr ⟨_, by decide, rfl⟩))) hr

/-- The third stretch (the per-edge weights). -/
theorem keep_hostOps0_2 (W : Valuation τ sig (Elt Ideal)) {r : Ref sig .tc}
    (hr : r ∉ [main_c, main_v15, main_v16, main_c_3, main_v17, main_v18, main_v19, main_v20, main_v21, main_c_4, main_v22,
      main_v23, main_c_5, main_v24, main_v25, main_v26, main_v27, main_v28, main_v29]) :
    StableHlo.after hostOps0_2 W (Proc.devRef .tc r) = W (Proc.devRef .tc r) :=
  StableHlo.after_of_writes_sub hostOps0_2 W (by
    simp only [hostOps0_2, List.Forall, StableHlo.nullary_writes, StableHlo.unary_writes, StableHlo.binary_writes,
      StableHlo.ternary_writes, StableHlo.reshape_writes]
    repeat' apply And.intro
    all_goals exact Finset.singleton_subset_iff.mpr (List.mem_toFinset.mpr (List.mem_map.mpr ⟨_, by decide, rfl⟩))) hr

/-- The stretch between the first and the second call (the first weighted edge sum). -/
theorem keep_hostOps1 (W : Valuation τ sig (Elt Ideal)) {r : Ref sig .tc}
    (hr : r ∉ [main_c_6, main_v31, main_v32, main_c_7, main_v33, main_v34, main_v35, main_v36, main_v37, main_v38,
      main_v39, main_v40, main_cst_8, main_v41, main_v42, main_v43]) :
    StableHlo.after hostOps1 W (Proc.devRef .tc r) = W (Proc.devRef .tc r) :=
  StableHlo.after_of_writes_sub hostOps1 W (by
    simp only [hostOps1, List.Forall, StableHlo.nullary_writes, StableHlo.unary_writes, StableHlo.binary_writes,
      StableHlo.ternary_writes, StableHlo.reshape_writes]
    repeat' apply And.intro
    all_goals exact Finset.singleton_subset_iff.mpr (List.mem_toFinset.mpr (List.mem_map.mpr ⟨_, by decide, rfl⟩))) hr

/-- The stretch between the second and the third call (the second weighted edge sum). -/
theorem keep_hostOps2 (W : Valuation τ sig (Elt Ideal)) {r : Ref sig .tc}
    (hr : r ∉ [main_c_9, main_v45, main_v46, main_c_10, main_v47, main_v48, main_v49, main_v50, main_v51, main_v52,
      main_v53, main_v54, main_cst_11, main_v55, main_v56, main_v57]) :
    StableHlo.after hostOps2 W (Proc.devRef .tc r) = W (Proc.devRef .tc r) :=
  StableHlo.after_of_writes_sub hostOps2 W (by
    simp only [hostOps2, List.Forall, StableHlo.nullary_writes, StableHlo.unary_writes, StableHlo.binary_writes,
      StableHlo.ternary_writes, StableHlo.reshape_writes]
    repeat' apply And.intro
    all_goals exact Finset.singleton_subset_iff.mpr (List.mem_toFinset.mpr (List.mem_map.mpr ⟨_, by decide, rfl⟩))) hr

/-! ## A buffer that nothing writes, read at a call's entry

A reference that no host operation writes and that is no array of an earlier call holds at a call's entry what the
launch memory holds. -/

/-- At the first call's entry. -/
theorem launch_at3 (c : Dev nD) {r : Ref sig .tc}
    (h0 : r ∉ [main_v0, main_v1, main_v2, main_v3, main_v4, main_v5, main_v6, main_cst, main_v7, main_cst_0, main_v8,
      main_v9, main_v10, main_cst_1, main_v11, main_v12, main_v13, main_cst_2])
    (h01 : r ∉ [main_call0_v0, main_call0_v1, main_v14])
    (h02 : r ∉ [main_c, main_v15, main_v16, main_c_3, main_v17, main_v18, main_v19, main_v20, main_v21, main_c_4, main_v22,
      main_v23, main_c_5, main_v24, main_v25, main_v26, main_v27, main_v28, main_v29]) :
    W3 m ρ c (Proc.devRef .tc r) = m ((c : Thread nD τ).loc r) :=
  (keep_hostOps0_2 (W2 m ρ c) h02).trans ((keep_hostOps0_1 (W1 m ρ c) h01).trans (keep_hostOps0 (W0 m ρ c) h0))

/-- At the second call's entry. -/
theorem launch_at5 (c : Dev nD) {r : Ref sig .tc}
    (h0 : r ∉ [main_v0, main_v1, main_v2, main_v3, main_v4, main_v5, main_v6, main_cst, main_v7, main_cst_0, main_v8,
      main_v9, main_v10, main_cst_1, main_v11, main_v12, main_v13, main_cst_2])
    (h01 : r ∉ [main_call0_v0, main_call0_v1, main_v14])
    (h02 : r ∉ [main_c, main_v15, main_v16, main_c_3, main_v17, main_v18, main_v19, main_v20, main_v21, main_c_4, main_v22,
      main_v23, main_c_5, main_v24, main_v25, main_v26, main_v27, main_v28, main_v29])
    (hc0 : ∀ w, Pipeline.arrRef spec0 w ≠ r)
    (h1 : r ∉ [main_c_6, main_v31, main_v32, main_c_7, main_v33, main_v34, main_v35, main_v36, main_v37, main_v38,
      main_v39, main_v40, main_cst_8, main_v41, main_v42, main_v43]) :
    W5 m ρ c (Proc.devRef .tc r) = m ((c : Thread nD τ).loc r) :=
  (keep_hostOps1 (W4 m ρ c) h1).trans ((W4_of_ne m ρ c r hc0).trans (launch_at3 m ρ c h0 h01 h02))

/-- At the third call's entry. -/
theorem launch_at7 (c : Dev nD) {r : Ref sig .tc}
    (h0 : r ∉ [main_v0, main_v1, main_v2, main_v3, main_v4, main_v5, main_v6, main_cst, main_v7, main_cst_0, main_v8,
      main_v9, main_v10, main_cst_1, main_v11, main_v12, main_v13, main_cst_2])
    (h01 : r ∉ [main_call0_v0, main_call0_v1, main_v14])
    (h02 : r ∉ [main_c, main_v15, main_v16, main_c_3, main_v17, main_v18, main_v19, main_v20, main_v21, main_c_4, main_v22,
      main_v23, main_c_5, main_v24, main_v25, main_v26, main_v27, main_v28, main_v29])
    (hc0 : ∀ w, Pipeline.arrRef spec0 w ≠ r)
    (h1 : r ∉ [main_c_6, main_v31, main_v32, main_c_7, main_v33, main_v34, main_v35, main_v36, main_v37, main_v38,
      main_v39, main_v40, main_cst_8, main_v41, main_v42, main_v43])
    (hc1 : ∀ w, Pipeline.arrRef spec1 w ≠ r)
    (h2 : r ∉ [main_c_9, main_v45, main_v46, main_c_10, main_v47, main_v48, main_v49, main_v50, main_v51, main_v52,
      main_v53, main_v54, main_cst_11, main_v55, main_v56, main_v57]) :
    W7 m ρ c (Proc.devRef .tc r) = m ((c : Thread nD τ).loc r) :=
  (keep_hostOps2 (W6 m ρ c) h2).trans ((W6_of_ne m ρ c r hc1).trans (launch_at5 m ρ c h0 h01 h02 hc0 h1))

/-! ## What each host stretch computes -/

set_option maxHeartbeats 400000 in
/-- The first stretch leaves the edge sources with the self loops appended. -/
theorem src_hostOps0 (W : Valuation τ sig (Elt Ideal)) :
    StableHlo.after hostOps0 W (Proc.devRef .tc main_v5) = Cert.Gnn.srcLoop (F := Ideal) (W (Proc.devRef .tc main_arg1)) := by
  after_results
  unfold Cert.Gnn.srcLoop
  rfl

set_option maxHeartbeats 400000 in
/-- The first stretch leaves the edge targets with the self loops appended. -/
theorem dst_hostOps0 (W : Valuation τ sig (Elt Ideal)) :
    StableHlo.after hostOps0 W (Proc.devRef .tc main_v6) = Cert.Gnn.dstLoop (F := Ideal) (W (Proc.devRef .tc main_arg1)) := by
  after_results
  unfold Cert.Gnn.dstLoop
  rfl

set_option maxHeartbeats 400000 in
/-- The first stretch leaves the test "the degree is positive". -/
theorem pos_hostOps0 (W : Valuation τ sig (Elt Ideal)) :
    StableHlo.after hostOps0 W (Proc.devRef .tc main_v12)
      = (cmpf .ogt (Cert.Gnn.degOf (F := Ideal) (W (Proc.devRef .tc main_arg1)))
          (broadcastInDim S100000 ![] bcast_S_S100000 (constant (F := Ideal) S_ .f32 0x00000000#32))
          : (⟨S100000, .i1⟩ : BufTy).Contents (Elt Ideal)) := by
  after_results
  unfold Cert.Gnn.degOf Cert.Gnn.col1 Cert.Gnn.dstLoop
  rfl

set_option maxHeartbeats 400000 in
/-- The first stretch leaves the inverse square root of the degree. -/
theorem rsqrt_hostOps0 (W : Valuation τ sig (Elt Ideal)) :
    StableHlo.after hostOps0 W (Proc.devRef .tc main_v13)
      = (Host.rsqrt (F := Ideal) (φ := .f32) (Cert.Gnn.degOf (F := Ideal) (W (Proc.devRef .tc main_arg1)))
          : (⟨S100000, .f32⟩ : BufTy).Contents (Elt Ideal)) := by
  after_results
  unfold Cert.Gnn.degOf Cert.Gnn.col1 Cert.Gnn.dstLoop
  rfl

set_option maxHeartbeats 400000 in
/-- The first stretch leaves the constant 0 that the selection falls back to. -/
theorem zero_hostOps0 (W : Valuation τ sig (Elt Ideal)) :
    StableHlo.after hostOps0 W (Proc.devRef .tc main_cst_2)
      = (constant (F := Ideal) S_ .f32 0x00000000#32 : (⟨S_, .f32⟩ : BufTy).Contents (Elt Ideal)) := by
  after_results

set_option maxHeartbeats 400000 in
/-- The second stretch selects between its two operands by its test, 0 repeated on every node as the fallback. -/
theorem dinv_hostOps0_1 (W : Valuation τ sig (Elt Ideal)) :
    StableHlo.after hostOps0_1 W (Proc.devRef .tc main_v14)
      = (select (W (Proc.devRef .tc main_v12)) (W (Proc.devRef .tc main_v13))
          (broadcastInDim S100000 ![] bcast_S_S100000 (id (W (Proc.devRef .tc main_cst_2))))
          : (⟨S100000, .f32⟩ : BufTy).Contents (Elt Ideal)) := by
  after_results
  rfl

set_option maxHeartbeats 400000 in
/-- The third stretch multiplies what it finds at each edge's source by what it finds at the edge's target. -/
theorem norm_hostOps0_2 (W : Valuation τ sig (Elt Ideal)) :
    StableHlo.after hostOps0_2 W (Proc.devRef .tc main_v29)
      = (mulf (F := Ideal) (s := S1700000) (φ := .f32)
          (Host.gather gather_S100000_S1700000x1_S1700000_n_0_n_n_0_1_1 (W (Proc.devRef .tc main_v14))
            (Cert.Gnn.col1 (F := Ideal) (Cert.Gnn.wrap (F := Ideal) (W (Proc.devRef .tc main_v5)))))
          (Host.gather gather_S100000_S1700000x1_S1700000_n_0_n_n_0_1_1 (W (Proc.devRef .tc main_v14))
            (Cert.Gnn.col1 (F := Ideal) (Cert.Gnn.wrap (F := Ideal) (W (Proc.devRef .tc main_v6)))))
          : (⟨S1700000, .f32⟩ : BufTy).Contents (Elt Ideal)) := by
  after_results
  unfold Cert.Gnn.col1 Cert.Gnn.wrap
  rfl

set_option maxHeartbeats 400000 in
/-- The stretch before the second call leaves the weighted edge sum of the first call's result. -/
theorem agg_hostOps1 (W : Valuation τ sig (Elt Ideal)) :
    StableHlo.after hostOps1 W (Proc.devRef .tc main_v43)
      = Cert.Gnn.aggOf (F := Ideal) (W (Proc.devRef .tc main_v30)) (W (Proc.devRef .tc main_v5))
          (W (Proc.devRef .tc main_v6)) (W (Proc.devRef .tc main_v29)) := by
  after_results
  unfold Cert.Gnn.aggOf Cert.Gnn.col1 Cert.Gnn.wrap
  rfl

set_option maxHeartbeats 400000 in
/-- The stretch before the third call leaves the weighted edge sum of the second call's result. -/
theorem agg_hostOps2 (W : Valuation τ sig (Elt Ideal)) :
    StableHlo.after hostOps2 W (Proc.devRef .tc main_v57)
      = Cert.Gnn.aggOf (F := Ideal) (W (Proc.devRef .tc main_v44)) (W (Proc.devRef .tc main_v5))
          (W (Proc.devRef .tc main_v6)) (W (Proc.devRef .tc main_v29)) := by
  after_results
  unfold Cert.Gnn.aggOf Cert.Gnn.col1 Cert.Gnn.wrap
  rfl

/-! ## The graph at each boundary

The endpoint lists and the weights are computed before the first call from the edge list alone; nothing
afterwards writes them. -/

theorem src_at1 (c : Dev nD) :
    W1 m ρ c (Proc.devRef .tc main_v5) = Cert.Gnn.srcLoop (F := Ideal) (m ((c : Thread nD τ).loc main_arg1)) :=
  src_hostOps0 (W0 m ρ c)

theorem dst_at1 (c : Dev nD) :
    W1 m ρ c (Proc.devRef .tc main_v6) = Cert.Gnn.dstLoop (F := Ideal) (m ((c : Thread nD τ).loc main_arg1)) :=
  dst_hostOps0 (W0 m ρ c)

theorem pos_at1 (c : Dev nD) :
    W1 m ρ c (Proc.devRef .tc main_v12)
      = (cmpf .ogt (Cert.Gnn.degOf (F := Ideal) (m ((c : Thread nD τ).loc main_arg1)))
          (broadcastInDim S100000 ![] bcast_S_S100000 (constant (F := Ideal) S_ .f32 0x00000000#32))
          : (⟨S100000, .i1⟩ : BufTy).Contents (Elt Ideal)) :=
  pos_hostOps0 (W0 m ρ c)

theorem rsqrt_at1 (c : Dev nD) :
    W1 m ρ c (Proc.devRef .tc main_v13)
      = (Host.rsqrt (F := Ideal) (φ := .f32) (Cert.Gnn.degOf (F := Ideal) (m ((c : Thread nD τ).loc main_arg1)))
          : (⟨S100000, .f32⟩ : BufTy).Contents (Elt Ideal)) :=
  rsqrt_hostOps0 (W0 m ρ c)

theorem zero_at1 (c : Dev nD) :
    W1 m ρ c (Proc.devRef .tc main_cst_2)
      = (constant (F := Ideal) S_ .f32 0x00000000#32 : (⟨S_, .f32⟩ : BufTy).Contents (Elt Ideal)) :=
  zero_hostOps0 (W0 m ρ c)

theorem src_at2 (c : Dev nD) :
    W2 m ρ c (Proc.devRef .tc main_v5) = Cert.Gnn.srcLoop (F := Ideal) (m ((c : Thread nD τ).loc main_arg1)) :=
  (keep_hostOps0_1 (W1 m ρ c) (by decide)).trans (src_at1 m ρ c)

theorem dst_at2 (c : Dev nD) :
    W2 m ρ c (Proc.devRef .tc main_v6) = Cert.Gnn.dstLoop (F := Ideal) (m ((c : Thread nD τ).loc main_arg1)) :=
  (keep_hostOps0_1 (W1 m ρ c) (by decide)).trans (dst_at1 m ρ c)

/-- After the second stretch: the inverse square root of the degree where the degree is positive, 0 elsewhere. -/
theorem dinv_at2 (c : Dev nD) :
    W2 m ρ c (Proc.devRef .tc main_v14) = Cert.Gnn.dinvOf (F := Ideal) (m ((c : Thread nD τ).loc main_arg1)) := by
  refine (dinv_hostOps0_1 (W1 m ρ c)).trans ?_
  rw [pos_at1, rsqrt_at1, zero_at1]
  rfl

theorem src_at3 (c : Dev nD) :
    W3 m ρ c (Proc.devRef .tc main_v5) = Cert.Gnn.srcLoop (F := Ideal) (m ((c : Thread nD τ).loc main_arg1)) :=
  (keep_hostOps0_2 (W2 m ρ c) (by decide)).trans (src_at2 m ρ c)

theorem dst_at3 (c : Dev nD) :
    W3 m ρ c (Proc.devRef .tc main_v6) = Cert.Gnn.dstLoop (F := Ideal) (m ((c : Thread nD τ).loc main_arg1)) :=
  (keep_hostOps0_2 (W2 m ρ c) (by decide)).trans (dst_at2 m ρ c)

/-- At the first call's entry the weights are those of the network. -/
theorem norm_at3 (c : Dev nD) :
    W3 m ρ c (Proc.devRef .tc main_v29) = Cert.Gnn.normOf (F := Ideal) (m ((c : Thread nD τ).loc main_arg1)) := by
  refine (norm_hostOps0_2 (W2 m ρ c)).trans ?_
  rw [dinv_at2, src_at2, dst_at2]
  rfl

theorem src_at4 (c : Dev nD) :
    W4 m ρ c (Proc.devRef .tc main_v5) = Cert.Gnn.srcLoop (F := Ideal) (m ((c : Thread nD τ).loc main_arg1)) :=
  (W4_of_ne m ρ c main_v5 (by decide)).trans (src_at3 m ρ c)

theorem dst_at4 (c : Dev nD) :
    W4 m ρ c (Proc.devRef .tc main_v6) = Cert.Gnn.dstLoop (F := Ideal) (m ((c : Thread nD τ).loc main_arg1)) :=
  (W4_of_ne m ρ c main_v6 (by decide)).trans (dst_at3 m ρ c)

theorem norm_at4 (c : Dev nD) :
    W4 m ρ c (Proc.devRef .tc main_v29) = Cert.Gnn.normOf (F := Ideal) (m ((c : Thread nD τ).loc main_arg1)) :=
  (W4_of_ne m ρ c main_v29 (by decide)).trans (norm_at3 m ρ c)

theorem src_at6 (c : Dev nD) :
    W6 m ρ c (Proc.devRef .tc main_v5) = Cert.Gnn.srcLoop (F := Ideal) (m ((c : Thread nD τ).loc main_arg1)) :=
  (W6_of_ne m ρ c main_v5 (by decide)).trans ((keep_hostOps1 (W4 m ρ c) (by decide)).trans (src_at4 m ρ c))

theorem dst_at6 (c : Dev nD) :
    W6 m ρ c (Proc.devRef .tc main_v6) = Cert.Gnn.dstLoop (F := Ideal) (m ((c : Thread nD τ).loc main_arg1)) :=
  (W6_of_ne m ρ c main_v6 (by decide)).trans ((keep_hostOps1 (W4 m ρ c) (by decide)).trans (dst_at4 m ρ c))

theorem norm_at6 (c : Dev nD) :
    W6 m ρ c (Proc.devRef .tc main_v29) = Cert.Gnn.normOf (F := Ideal) (m ((c : Thread nD τ).loc main_arg1)) :=
  (W6_of_ne m ρ c main_v29 (by decide)).trans ((keep_hostOps1 (W4 m ρ c) (by decide)).trans (norm_at4 m ρ c))

/-! ## The three calls and the two sums between them -/

/-- The first call's result array is the embedding of what the call found. -/
theorem v30_at4 (c : Dev nD) :
    W4 m ρ c (Proc.devRef .tc main_v30)
      = Cert.Gnn.embedOf (F := Ideal) (W3 m ρ c (Proc.devRef .tc main_arg0)) (W3 m ρ c (Proc.devRef .tc main_arg2))
          (W3 m ρ c (Proc.devRef .tc main_arg3)) (W3 m ρ c (Proc.devRef .tc main_arg4))
          (W3 m ρ c (Proc.devRef .tc main_arg5)) (W3 m ρ c (Proc.devRef .tc main_arg6)) :=
  (W4_arr m ρ c 6).trans (final0 (V3 m ρ) c)

/-- The second call's result array is the convolution layer of what the call found. -/
theorem v44_at6 (c : Dev nD) :
    W6 m ρ c (Proc.devRef .tc main_v44)
      = Cert.Gnn.layerOf (F := Ideal) (W5 m ρ c (Proc.devRef .tc main_v43)) (W5 m ρ c (Proc.devRef .tc main_arg7))
          (W5 m ρ c (Proc.devRef .tc main_arg8)) :=
  (W6_arr m ρ c 3).trans (final1 (V5 m ρ) c)

/-- The third call's result array is the read-out of what the call found. -/
theorem v58_at8 (c : Dev nD) :
    W8 m ρ c (Proc.devRef .tc main_v58)
      = Cert.Gnn.headOf (F := Ideal) (W7 m ρ c (Proc.devRef .tc main_v57)) (W7 m ρ c (Proc.devRef .tc main_arg9))
          (W7 m ρ c (Proc.devRef .tc main_arg10)) (W7 m ρ c (Proc.devRef .tc main_arg11))
          (W7 m ρ c (Proc.devRef .tc main_arg12)) (W7 m ρ c (Proc.devRef .tc main_arg13)) :=
  (W8_arr m ρ c 6).trans (final2 (V7 m ρ) c)

/-- At the second call's entry: the weighted edge sum of the first call's result. -/
theorem v43_at5 (c : Dev nD) :
    W5 m ρ c (Proc.devRef .tc main_v43)
      = Cert.Gnn.aggOf (F := Ideal) (W4 m ρ c (Proc.devRef .tc main_v30)) (W4 m ρ c (Proc.devRef .tc main_v5))
          (W4 m ρ c (Proc.devRef .tc main_v6)) (W4 m ρ c (Proc.devRef .tc main_v29)) :=
  agg_hostOps1 (W4 m ρ c)

/-- At the third call's entry: the weighted edge sum of the second call's result. -/
theorem v57_at7 (c : Dev nD) :
    W7 m ρ c (Proc.devRef .tc main_v57)
      = Cert.Gnn.aggOf (F := Ideal) (W6 m ρ c (Proc.devRef .tc main_v44)) (W6 m ρ c (Proc.devRef .tc main_v5))
          (W6 m ρ c (Proc.devRef .tc main_v6)) (W6 m ρ c (Proc.devRef .tc main_v29)) :=
  agg_hostOps2 (W6 m ρ c)

/-- The result buffer after the last pallas_call holds the network's output of the launch arguments. -/
theorem kernel_value (c : Dev nD) :
    W8 m ρ c (Proc.devRef .tc main_v58)
      = Cert.Gnn.gnnOf (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10))
          (m ((c : Thread nD τ).loc main_arg11)) (m ((c : Thread nD τ).loc main_arg12)) (m ((c : Thread nD τ).loc main_arg13)) := by
  rw [v58_at8, v57_at7, v44_at6, v43_at5, v30_at4,
    src_at6, dst_at6, norm_at6, src_at4, dst_at4, norm_at4,
    launch_at7 m ρ c (r := main_arg9) (by decide) (by decide) (by decide) (by decide) (by decide) (by decide) (by decide),
    launch_at7 m ρ c (r := main_arg10) (by decide) (by decide) (by decide) (by decide) (by decide) (by decide) (by decide),
    launch_at7 m ρ c (r := main_arg11) (by decide) (by decide) (by decide) (by decide) (by decide) (by decide) (by decide),
    launch_at7 m ρ c (r := main_arg12) (by decide) (by decide) (by decide) (by decide) (by decide) (by decide) (by decide),
    launch_at7 m ρ c (r := main_arg13) (by decide) (by decide) (by decide) (by decide) (by decide) (by decide) (by decide),
    launch_at5 m ρ c (r := main_arg7) (by decide) (by decide) (by decide) (by decide) (by decide),
    launch_at5 m ρ c (r := main_arg8) (by decide) (by decide) (by decide) (by decide) (by decide),
    launch_at3 m ρ c (r := main_arg0) (by decide) (by decide) (by decide),
    launch_at3 m ρ c (r := main_arg2) (by decide) (by decide) (by decide),
    launch_at3 m ρ c (r := main_arg3) (by decide) (by decide) (by decide),
    launch_at3 m ρ c (r := main_arg4) (by decide) (by decide) (by decide),
    launch_at3 m ρ c (r := main_arg5) (by decide) (by decide) (by decide),
    launch_at3 m ρ c (r := main_arg6) (by decide) (by decide) (by decide)]
  rfl

end Cert.KernelIdeal.GnnValue

end
-- ==== Proof.RefSide.lean ====
/-
  The reference program's result is the network of `Spec.lean` applied to its arguments: its composed term is,
  operation for operation, the embedding layers, the two graph convolutions and the read-out layers, with the
  endpoint lists, the degrees and the per-edge weights spelt out once per convolution; both spellings are the
  same functions of the edge list.
-/
import proofs.«169415_j13134009991452_1_alg».proof.Proof.Spec
import proofs.«169415_j13134009991452_1_alg».proof.Proof.RefRun

noncomputable section

namespace Cert.ReferenceIdeal.GnnValue

open Cert.ReferenceIdeal Cert.ReferenceIdeal.Gen Idealize.ShloMosaic Idealize.ShloMosaic.TcCoe Idealize.SL.Sem

variable {F : FTy → Type} [FloatOps F]

set_option maxRecDepth 8192 in
/-- The reference run's result term is the network's output of the launch arguments. -/
theorem ref_value (m : (ℓ : Loc nD τ sig) → Buf (Elt F) ℓ) (c : Dev nD) :
    Cert.ReferenceIdeal.ValueP.res_main_v111 m c
      = Cert.Gnn.gnnOf (F := F) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10))
          (m ((c.tc : Thread nD τ).loc main_arg11)) (m ((c.tc : Thread nD τ).loc main_arg12)) (m ((c.tc : Thread nD τ).loc main_arg13)) := by
  unfold Cert.ReferenceIdeal.ValueP.res_main_v111 Cert.Gnn.gnnOf Cert.Gnn.headOf Cert.Gnn.layerOf Cert.Gnn.embedOf Cert.Gnn.reluBias
    Cert.Gnn.aggOf Cert.Gnn.normOf Cert.Gnn.dinvOf Cert.Gnn.degOf Cert.Gnn.col1 Cert.Gnn.wrap Cert.Gnn.srcLoop Cert.Gnn.dstLoop
    Cert.Gnn.bias64 Cert.Gnn.bias32 Cert.Gnn.bias1
  rfl

end Cert.ReferenceIdeal.GnnValue

end
-- ==== Proof.lean ====
/-
  A graph network on 100000 nodes and 1600000 directed edges: an embedding perceptron on the node features,
  two graph convolutions (a linear map, the symmetric-normalised sum over incoming edges and a self loop, a bias,
  max(·, 0)) and a read-out perceptron to one value per node.

  The kernel program computes the node-wise layers in three pallas_calls over blocks of 10000 nodes, with bf16
  matrix-product operands, and leaves the edge sums to host operations between the calls; it builds the edge
  weights once. The reference computes everything on the host and builds the edge weights once per convolution.
  Over the extended reals the two agree entry by entry: a change of float format is the identity; a matrix
  product over a block of rows is that block of rows of the whole product, since it contracts within a row
  (`RowBlocks.lean`); the ten row blocks of each call tile its result (`Region0.lean` … `Region2.lean`); the
  host operations between the calls are the same functions in both programs (`KernelValue.lean`,
  `RefSide.lean`). No algebraic law of the extended reals is used beyond that, so finiteness of the inputs is
  never opened. The ideal pass rewrote nothing, so the kernel's idealization is its own text.
-/
import proofs.«169415_j13134009991452_1_alg».proof.Defs
import proofs.«169415_j13134009991452_1_alg».proof.Proof.Gen.Kernel
import proofs.«169415_j13134009991452_1_alg».proof.Proof.Gen.Kernel.Frame
import proofs.«169415_j13134009991452_1_alg».proof.Proof.Gen.KernelIdeal
import proofs.«169415_j13134009991452_1_alg».proof.Proof.Gen.KernelIdeal.Frame
import proofs.«169415_j13134009991452_1_alg».proof.Proof.Gen.ReferenceIdeal
import proofs.«169415_j13134009991452_1_alg».proof.Proof.Gen.Pre_finite_inputs
import proofs.«169415_j13134009991452_1_alg».proof.Proof.RunValue
import proofs.«169415_j13134009991452_1_alg».proof.Proof.KernelValue
import proofs.«169415_j13134009991452_1_alg».proof.Proof.RefRun
import proofs.«169415_j13134009991452_1_alg».proof.Proof.RefSide
import Idealize.ShloMosaic.Adequacy
import Idealize.ShloMosaic.Init

noncomputable section

namespace Cert.Proof

open Idealize.ShloMosaic Idealize.ShloMosaic.TcCoe Idealize.SL.Sem

/-- The word-level kernel program terminates without a fault and keeps its arguments. -/
theorem frame_k : Cert.frame_Kernel := fun m ρ _ => Cert.Kernel.Gen.frame m ρ

/-- The idealized kernel program terminates without a fault and keeps its arguments. -/
theorem frame_ki : Cert.frame_KernelIdeal := fun m ρ _ => Cert.KernelIdeal.Gen.frame m ρ

/-- The idealized reference terminates without a fault and keeps its arguments: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both idealized programs end with the network's output of their (agreeing) arguments. -/
theorem algebraic : Cert.algebraic_KernelIdeal_ReferenceIdeal := by
  intro m ρ m' ρ' _ hagree
  refine ⟨fun c => (open Cert.KernelIdeal in Cert.Gnn.gnnOf (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))), ?_, ?_⟩
  · exact (θ_run Cert.KernelIdeal.defs _ _).mono
      (fun r h c => ⟨(h c).1.trans (Cert.KernelIdeal.GnnValue.kernel_value m ρ c), (h c).2⟩)
      (Cert.KernelIdeal.GnnRun.run_value (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.GnnValue.ref_value]
    obtain ⟨h0, h1, h2, h3, h4, h5, h6, h7, h8, h9, h10, h11, h12, h13⟩ := hagree c
    rw [h0, h1, h2, h3, h4, h5, h6, h7, h8, h9, h10, h11, h12, h13]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
